-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_arg1) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1048576x3 : Shape := ⟨3, ![2, 1048576, 3]⟩
abbrev S2x1048576 : Shape := ⟨2, ![2, 1048576]⟩
abbrev S2x1048576x82 : Shape := ⟨3, ![2, 1048576, 82]⟩
abbrev S_ : Shape := ⟨0, ![]⟩

class Facts : Prop where
  bcast_S_S2x1048576x3 : S_.BroadcastsInDim S2x1048576x3 (![] : Fin 0 → Fin S2x1048576x3.rank)
  reducesTo_S2x1048576x3_S_d0_1_2 : S2x1048576x3.ReducesTo [0, 1, 2] S_
  h_S_ : 0 < S_.numel
  bcast_S_S2x1048576 : S_.BroadcastsInDim S2x1048576 (![] : Fin 0 → Fin S2x1048576.rank)
  reducesTo_S2x1048576_S_d0_1 : S2x1048576.ReducesTo [0, 1] S_
  bcast_S_S2x1048576x82 : S_.BroadcastsInDim S2x1048576x82 (![] : Fin 0 → Fin S2x1048576x82.rank)
  reducesTo_S2x1048576x82_S_d0_1_2 : S2x1048576x82.ReducesTo [0, 1, 2] S_

variable [Facts]

def fn {F : FTy → Type} [FloatOps F] (main_arg0 : FVec F S2x1048576x3 .f32) (main_arg1 : FVec F S2x1048576 .f32) (main_arg2 : FVec F S2x1048576x82 .f32) : IVec S_ 1 :=
  let main_v0 : FVec F S2x1048576x3 .f32 := Host.absf main_arg0
  let main_cst : FVec F S_ .f32 := constant S_ .f32 0x7F800000#32
  let main_v1 : FVec F S2x1048576x3 .f32 := broadcastInDim S2x1048576x3 ![] bcast_S_S2x1048576x3 main_cst
  let main_v2 : IVec S2x1048576x3 1 := cmpf .olt main_v0 main_v1
  let main_c : IVec S_ 1 := constantI S_ 1 1#1
  let main_v3 : IVec S_ 1 := (fun x v => Host.reduce IntOp.andi x v reducesTo_S2x1048576x3_S_d0_1_2 h_S_) main_v2 main_c
  let main_v4 : FVec F S2x1048576 .f32 := Host.absf main_arg1
  let main_cst_0 : FVec F S_ .f32 := constant S_ .f32 0x7F800000#32
  let main_v5 : FVec F S2x1048576 .f32 := broadcastInDim S2x1048576 ![] bcast_S_S2x1048576 main_cst_0
  let main_v6 : IVec S2x1048576 1 := cmpf .olt main_v4 main_v5
  let main_c_1 : IVec S_ 1 := constantI S_ 1 1#1
  let main_v7 : IVec S_ 1 := (fun x v => Host.reduce IntOp.andi x v reducesTo_S2x1048576_S_d0_1 h_S_) main_v6 main_c_1
  let main_v8 : IVec S_ 1 := andi main_v3 main_v7
  let main_v9 : FVec F S2x1048576x82 .f32 := Host.absf main_arg2
  let main_cst_2 : FVec F S_ .f32 := constant S_ .f32 0x7F800000#32
  let main_v10 : FVec F S2x1048576x82 .f32 := broadcastInDim S2x1048576x82 ![] bcast_S_S2x1048576x82 main_cst_2
  let main_v11 : IVec S2x1048576x82 1 := cmpf .olt main_v9 main_v10
  let main_c_3 : IVec S_ 1 := constantI S_ 1 1#1
  let main_v12 : IVec S_ 1 := (fun x v => Host.reduce IntOp.andi x v reducesTo_S2x1048576x82_S_d0_1_2 h_S_) main_v11 main_c_3
  let main_v13 : IVec S_ 1 := andi main_v8 main_v12
  main_v13
-- ==== Kernel.lean ====
abbrev S2x1048576x3 : Shape := ⟨3, ![2, 1048576, 3]⟩
abbrev S2x1048576 : Shape := ⟨2, ![2, 1048576]⟩
abbrev S2x1048576x82 : Shape := ⟨3, ![2, 1048576, 82]⟩
abbrev S1x75 : Shape := ⟨2, ![1, 75]⟩
abbrev S2097152x82 : Shape := ⟨2, ![2097152, 82]⟩
abbrev S2097152x9 : Shape := ⟨2, ![2097152, 9]⟩
abbrev S2097152x3 : Shape := ⟨2, ![2097152, 3]⟩
abbrev S2097152x4 : Shape := ⟨2, ![2097152, 4]⟩
abbrev S2097152x75 : Shape := ⟨2, ![2097152, 75]⟩
abbrev S2048x82 : Shape := ⟨2, ![2048, 82]⟩
abbrev S2048x9 : Shape := ⟨2, ![2048, 9]⟩
abbrev S2048x3 : Shape := ⟨2, ![2048, 3]⟩
abbrev S2048x4 : Shape := ⟨2, ![2048, 4]⟩
abbrev S2048x75 : Shape := ⟨2, ![2048, 75]⟩
abbrev S2048 : Shape := ⟨1, ![2048]⟩
abbrev S2048x1 : Shape := ⟨2, ![2048, 1]⟩
abbrev S2x1048576x3x3 : Shape := ⟨4, ![2, 1048576, 3, 3]⟩
abbrev S2x1048576x4 : Shape := ⟨3, ![2, 1048576, 4]⟩
abbrev S2x1048576x3x25 : Shape := ⟨4, ![2, 1048576, 3, 25]⟩

abbrev nBuf : Space → Nat
  | .hbm => 13
  | .vmem => 11
  | .smem => 0
  | _ => 0

abbrev bufTy : (tb : Table) → Fin (tcTables nBuf tb) → BufTy
  | .hbm, ⟨0, _⟩ => ⟨S2x1048576x3, .f32⟩
  | .hbm, ⟨1, _⟩ => ⟨S2x1048576, .f32⟩
  | .hbm, ⟨2, _⟩ => ⟨S2x1048576x82, .f32⟩
  | .hbm, ⟨3, _⟩ => ⟨S1x75, .f32⟩
  | .hbm, ⟨4, _⟩ => ⟨S2097152x82, .f32⟩
  | .hbm, ⟨5, _⟩ => ⟨S2097152x9, .f32⟩
  | .hbm, ⟨6, _⟩ => ⟨S2097152x3, .f32⟩
  | .hbm, ⟨7, _⟩ => ⟨S2097152x4, .f32⟩
  | .hbm, ⟨8, _⟩ => ⟨S2097152x75, .f32⟩
  | .hbm, ⟨9, _⟩ => ⟨S2x1048576x3x3, .f32⟩
  | .hbm, ⟨10, _⟩ => ⟨S2x1048576x3, .f32⟩
  | .hbm, ⟨11, _⟩ => ⟨S2x1048576x4, .f32⟩
  | .hbm, ⟨12, _⟩ => ⟨S2x1048576x3x25, .f32⟩
  | .local _ .vmem, ⟨0, _⟩ => ⟨S2048x82, .f32⟩
  | .local _ .vmem, ⟨1, _⟩ => ⟨S2048x82, .f32⟩
  | .local _ .vmem, ⟨2, _⟩ => ⟨S1x75, .f32⟩
  | .local _ .vmem, ⟨3, _⟩ => ⟨S2048x9, .f32⟩
  | .local _ .vmem, ⟨4, _⟩ => ⟨S2048x9, .f32⟩
  | .local _ .vmem, ⟨5, _⟩ => ⟨S2048x3, .f32⟩
  | .local _ .vmem, ⟨6, _⟩ => ⟨S2048x3, .f32⟩
  | .local _ .vmem, ⟨7, _⟩ => ⟨S2048x4, .f32⟩
  | .local _ .vmem, ⟨8, _⟩ => ⟨S2048x4, .f32⟩
  | .local _ .vmem, ⟨9, _⟩ => ⟨S2048x75, .f32⟩
  | .local _ .vmem, ⟨10, _⟩ => ⟨S2048x75, .f32⟩
  | _, _ => ⟨S2x1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x82 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x75 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x75 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x1048576x82_S2097152x82 : S2x1048576x82.ShapeCasts S2097152x82
  inb_S2048x82_S2048x82_0_0 : ∀ a, (![0, 0] : Fin 2 → Nat) a + S2048x82.size a ≤ S2048x82.size a
  h_S2048x82 : 0 < S2048x82.numel
  shapeCasts_S2048x82_S2048x82 : S2048x82.ShapeCasts S2048x82
  slices_S2048x82_o0_0_S2048x3 : S2048x82.Slices ![0, 0] S2048x3
  slices_S2048x82_o0_3_S2048x4 : S2048x82.Slices ![0, 3] S2048x4
  slices_S2048x82_o0_7_S2048x75 : S2048x82.Slices ![0, 7] S2048x75
  reduces_S2048x4_S2048 : S2048x4.Reduces [1] S2048
  shapeCasts_S2048_S2048x1 : S2048.ShapeCasts S2048x1
  broadcasts_S2048x1_S2048x4 : S2048x1.Broadcasts S2048x4
  slices_S2048x4_o0_0_S2048x1 : S2048x4.Slices ![0, 0] S2048x1
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  concatenates_S2048x1_S2048x1_S2048x1_S2048x1_S2048x1_S2048x1_S2048x1_S2048x1_S2048x1_S2048x9_d1 : Shape.Concatenates [S2048x1, S2048x1, S2048x1, S2048x1, S2048x1, S2048x1, S2048x1, S2048x1, S2048x1] S2048x9 1
  inb_S1x75_S1x75_0_0 : ∀ a, (![0, 0] : Fin 2 → Nat) a + S1x75.size a ≤ S1x75.size a
  h_S1x75 : 0 < S1x75.numel
  broadcasts_S1x75_S2048x75 : S1x75.Broadcasts S2048x75
  inb_S2048x9_S2048x9_0_0 : ∀ a, (![0, 0] : Fin 2 → Nat) a + S2048x9.size a ≤ S2048x9.size a
  h_S2048x9 : 0 < S2048x9.numel
  inb_S2048x3_S2048x3_0_0 : ∀ a, (![0, 0] : Fin 2 → Nat) a + S2048x3.size a ≤ S2048x3.size a
  h_S2048x3 : 0 < S2048x3.numel
  inb_S2048x4_S2048x4_0_0 : ∀ a, (![0, 0] : Fin 2 → Nat) a + S2048x4.size a ≤ S2048x4.size a
  h_S2048x4 : 0 < S2048x4.numel
  inb_S2048x75_S2048x75_0_0 : ∀ a, (![0, 0] : Fin 2 → Nat) a + S2048x75.size a ≤ S2048x75.size a
  h_S2048x75 : 0 < S2048x75.numel
  shapeCasts_S2097152x9_S2x1048576x3x3 : S2097152x9.ShapeCasts S2x1048576x3x3
  shapeCasts_S2097152x3_S2x1048576x3 : S2097152x3.ShapeCasts S2x1048576x3
  shapeCasts_S2097152x4_S2x1048576x4 : S2097152x4.ShapeCasts S2x1048576x4
  shapeCasts_S2097152x75_S2x1048576x3x25 : S2097152x75.ShapeCasts S2x1048576x3x25
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x82.size a ≤ S2097152x82.size a
  hwx0_0 : ∀ i : grid0.Coords, EltTy.bits .f32 = 32 ∨ (Rect.block (s := S2097152x82) S2048x82.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x75.size a ≤ S1x75.size a
  hwx0_1 : ∀ i : grid0.Coords, EltTy.bits .f32 = 32 ∨ (Rect.block (s := S1x75) S1x75.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x9.size a ≤ S2097152x9.size a
  hwx0_2 : ∀ i : grid0.Coords, EltTy.bits .f32 = 32 ∨ (Rect.block (s := S2097152x9) S2048x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x3.size a ≤ S2097152x3.size a
  hwx0_3 : ∀ i : grid0.Coords, EltTy.bits .f32 = 32 ∨ (Rect.block (s := S2097152x3) S2048x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x4.size a ≤ S2097152x4.size a
  hwx0_4 : ∀ i : grid0.Coords, EltTy.bits .f32 = 32 ∨ (Rect.block (s := S2097152x4) S2048x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x75.size a ≤ S2097152x75.size a
  hwx0_5 : ∀ i : grid0.Coords, EltTy.bits .f32 = 32 ∨ (Rect.block (s := S2097152x75) S2048x75.size (cc0_transform_5 i) (hinb0_5 i)).WholeWords (EltTy.packing .f32)

variable [Facts₀]

abbrev win0_0 : Pipeline.Window sig grid0 :=
  Pipeline.Window.ofSpec (Memref.whole main_v0) S2048x82.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S1x75.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2048x9.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2048x3.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S2048x4.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S2048x75.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x1048576x3 : Shape := ⟨3, ![2, 1048576, 3]⟩
abbrev S2x1048576 : Shape := ⟨2, ![2, 1048576]⟩
abbrev S2x1048576x82 : Shape := ⟨3, ![2, 1048576, 82]⟩
abbrev S25 : Shape := ⟨1, ![25]⟩
abbrev S2x1048576x4 : Shape := ⟨3, ![2, 1048576, 4]⟩
abbrev S2x1048576x75 : Shape := ⟨3, ![2, 1048576, 75]⟩
abbrev S_ : Shape := ⟨0, ![]⟩
abbrev S2x1048576x1 : Shape := ⟨3, ![2, 1048576, 1]⟩
abbrev S2x1048576x3x25 : Shape := ⟨4, ![2, 1048576, 3, 25]⟩
abbrev S1x1x1x25 : Shape := ⟨4, ![1, 1, 1, 25]⟩
abbrev S2x1048576x1x3 : Shape := ⟨4, ![2, 1048576, 1, 3]⟩
abbrev S2x1048576x3x3 : Shape := ⟨4, ![2, 1048576, 3, 3]⟩

abbrev nBuf : Space → Nat
  | .hbm => 126
  | .vmem => 0
  | .smem => 0
  | _ => 0

abbrev bufTy : (tb : Table) → Fin (tcTables nBuf tb) → BufTy
  | .hbm, ⟨0, _⟩ => ⟨S2x1048576x3, .f32⟩
  | .hbm, ⟨1, _⟩ => ⟨S2x1048576, .f32⟩
  | .hbm, ⟨2, _⟩ => ⟨S2x1048576x82, .f32⟩
  | .hbm, ⟨3, _⟩ => ⟨S25, .f32⟩
  | .hbm, ⟨4, _⟩ => ⟨S2x1048576x3, .f32⟩
  | .hbm, ⟨5, _⟩ => ⟨S2x1048576x4, .f32⟩
  | .hbm, ⟨6, _⟩ => ⟨S2x1048576x75, .f32⟩
  | .hbm, ⟨7, _⟩ => ⟨S2x1048576x3, .f32⟩
  | .hbm, ⟨8, _⟩ => ⟨S2x1048576x3, .f32⟩
  | .hbm, ⟨9, _⟩ => ⟨S_, .f32⟩
  | .hbm, ⟨10, _⟩ => ⟨S2x1048576x3, .f32⟩
  | .hbm, ⟨11, _⟩ => ⟨S2x1048576x3, .f32⟩
  | .hbm, ⟨12, _⟩ => ⟨S_, .f32⟩
  | .hbm, ⟨13, _⟩ => ⟨S2x1048576x3, .f32⟩
  | .hbm, ⟨14, _⟩ => ⟨S2x1048576x3, .f32⟩
  | .hbm, ⟨15, _⟩ => ⟨S_, .f32⟩
  | .hbm, ⟨16, _⟩ => ⟨S2x1048576x3, .f32⟩
  | .hbm, ⟨17, _⟩ => ⟨S2x1048576x3, .f32⟩
  | .hbm, ⟨18, _⟩ => ⟨S_, .f32⟩
  | .hbm, ⟨19, _⟩ => ⟨S2x1048576x3, .f32⟩
  | .hbm, ⟨20, _⟩ => ⟨S2x1048576x3, .f32⟩
  | .hbm, ⟨21, _⟩ => ⟨S2x1048576x4, .f32⟩
  | .hbm, ⟨22, _⟩ => ⟨S_, .f32⟩
  | .hbm, ⟨23, _⟩ => ⟨S2x1048576, .f32⟩
  | .hbm, ⟨24, _⟩ => ⟨S2x1048576x1, .f32⟩
  | .hbm, ⟨25, _⟩ => ⟨S2x1048576x1, .f32⟩
  | .hbm, ⟨26, _⟩ => ⟨S_, .f32⟩
  | .hbm, ⟨27, _⟩ => ⟨S2x1048576x1, .f32⟩
  | .hbm, ⟨28, _⟩ => ⟨S2x1048576x1, .f32⟩
  | .hbm, ⟨29, _⟩ => ⟨S2x1048576x4, .f32⟩
  | .hbm, ⟨30, _⟩ => ⟨S2x1048576x4, .f32⟩
  | .hbm, ⟨31, _⟩ => ⟨S2x1048576x3x25, .f32⟩
  | .hbm, ⟨32, _⟩ => ⟨S1x1x1x25, .f32⟩
  | .hbm, ⟨33, _⟩ => ⟨S2x1048576x3x25, .f32⟩
  | .hbm, ⟨34, _⟩ => ⟨S2x1048576x3x25, .f32⟩
  | .hbm, ⟨35, _⟩ => ⟨S2x1048576x1, .f32⟩
  | .hbm, ⟨36, _⟩ => ⟨S2x1048576, .f32⟩
  | .hbm, ⟨37, _⟩ => ⟨S2x1048576x1, .f32⟩
  | .hbm, ⟨38, _⟩ => ⟨S2x1048576, .f32⟩
  | .hbm, ⟨39, _⟩ => ⟨S2x1048576x1, .f32⟩
  | .hbm, ⟨40, _⟩ => ⟨S2x1048576, .f32⟩
  | .hbm, ⟨41, _⟩ => ⟨S2x1048576x1, .f32⟩
  | .hbm, ⟨42, _⟩ => ⟨S2x1048576, .f32⟩
  | .hbm, ⟨43, _⟩ => ⟨S2x1048576, .f32⟩
  | .hbm, ⟨44, _⟩ => ⟨S2x1048576, .f32⟩
  | .hbm, ⟨45, _⟩ => ⟨S2x1048576, .f32⟩
  | .hbm, ⟨46, _⟩ => ⟨S_, .f32⟩
  | .hbm, ⟨47, _⟩ => ⟨S2x1048576, .f32⟩
  | .hbm, ⟨48, _⟩ => ⟨S2x1048576, .f32⟩
  | .hbm, ⟨49, _⟩ => ⟨S_, .f32⟩
  | .hbm, ⟨50, _⟩ => ⟨S2x1048576, .f32⟩
  | .hbm, ⟨51, _⟩ => ⟨S2x1048576, .f32⟩
  | .hbm, ⟨52, _⟩ => ⟨S2x1048576, .f32⟩
  | .hbm, ⟨53, _⟩ => ⟨S2x1048576, .f32⟩
  | .hbm, ⟨54, _⟩ => ⟨S2x1048576, .f32⟩
  | .hbm, ⟨55, _⟩ => ⟨S_, .f32⟩
  | .hbm, ⟨56, _⟩ => ⟨S2x1048576, .f32⟩
  | .hbm, ⟨57, _⟩ => ⟨S2x1048576, .f32⟩
  | .hbm, ⟨58, _⟩ => ⟨S2x1048576, .f32⟩
  | .hbm, ⟨59, _⟩ => ⟨S2x1048576, .f32⟩
  | .hbm, ⟨60, _⟩ => ⟨S2x1048576, .f32⟩
  | .hbm, ⟨61, _⟩ => ⟨S_, .f32⟩
  | .hbm, ⟨62, _⟩ => ⟨S2x1048576, .f32⟩
  | .hbm, ⟨63, _⟩ => ⟨S2x1048576, .f32⟩
  | .hbm, ⟨64, _⟩ => ⟨S2x1048576x1, .f32⟩
  | .hbm, ⟨65, _⟩ => ⟨S2x1048576x1, .f32⟩
  | .hbm, ⟨66, _⟩ => ⟨S2x1048576x1, .f32⟩
  | .hbm, ⟨67, _⟩ => ⟨S2x1048576x3, .f32⟩
  | .hbm, ⟨68, _⟩ => ⟨S2x1048576, .f32⟩
  | .hbm, ⟨69, _⟩ => ⟨S2x1048576, .f32⟩
  | .hbm, ⟨70, _⟩ => ⟨S2x1048576, .f32⟩
  | .hbm, ⟨71, _⟩ => ⟨S_, .f32⟩
  | .hbm, ⟨72, _⟩ => ⟨S2x1048576, .f32⟩
  | .hbm, ⟨73, _⟩ => ⟨S2x1048576, .f32⟩
  | .hbm, ⟨74, _⟩ => ⟨S2x1048576, .f32⟩
  | .hbm, ⟨75, _⟩ => ⟨S2x1048576, .f32⟩
  | .hbm, ⟨76, _⟩ => ⟨S2x1048576, .f32⟩
  | .hbm, ⟨77, _⟩ => ⟨S_, .f32⟩
  | .hbm, ⟨78, _⟩ => ⟨S2x1048576, .f32⟩
  | .hbm, ⟨79, _⟩ => ⟨S2x1048576, .f32⟩
  | .hbm, ⟨80, _⟩ => ⟨S_, .f32⟩
  | .hbm, ⟨81, _⟩ => ⟨S2x1048576, .f32⟩
  | .hbm, ⟨82, _⟩ => ⟨S2x1048576, .f32⟩
  | .hbm, ⟨83, _⟩ => ⟨S2x1048576, .f32⟩
  | .hbm, ⟨84, _⟩ => ⟨S2x1048576, .f32⟩
  | .hbm, ⟨85, _⟩ => ⟨S2x1048576, .f32⟩
  | .hbm, ⟨86, _⟩ => ⟨S_, .f32⟩
  | .hbm, ⟨87, _⟩ => ⟨S2x1048576, .f32⟩
  | .hbm, ⟨88, _⟩ => ⟨S2x1048576, .f32⟩
  | .hbm, ⟨89, _⟩ => ⟨S2x1048576x1, .f32⟩
  | .hbm, ⟨90, _⟩ => ⟨S2x1048576x1, .f32⟩
  | .hbm, ⟨91, _⟩ => ⟨S2x1048576x1, .f32⟩
  | .hbm, ⟨92, _⟩ => ⟨S2x1048576x3, .f32⟩
  | .hbm, ⟨93, _⟩ => ⟨S2x1048576, .f32⟩
  | .hbm, ⟨94, _⟩ => ⟨S2x1048576, .f32⟩
  | .hbm, ⟨95, _⟩ => ⟨S2x1048576, .f32⟩
  | .hbm, ⟨96, _⟩ => ⟨S_, .f32⟩
  | .hbm, ⟨97, _⟩ => ⟨S2x1048576, .f32⟩
  | .hbm, ⟨98, _⟩ => ⟨S2x1048576, .f32⟩
  | .hbm, ⟨99, _⟩ => ⟨S2x1048576, .f32⟩
  | .hbm, ⟨100, _⟩ => ⟨S2x1048576, .f32⟩
  | .hbm, ⟨101, _⟩ => ⟨S2x1048576, .f32⟩
  | .hbm, ⟨102, _⟩ => ⟨S_, .f32⟩
  | .hbm, ⟨103, _⟩ => ⟨S2x1048576, .f32⟩
  | .hbm, ⟨104, _⟩ => ⟨S2x1048576, .f32⟩
  | .hbm, ⟨105, _⟩ => ⟨S2x1048576, .f32⟩
  | .hbm, ⟨106, _⟩ => ⟨S2x1048576, .f32⟩
  | .hbm, ⟨107, _⟩ => ⟨S2x1048576, .f32⟩
  | .hbm, ⟨108, _⟩ => ⟨S_, .f32⟩
  | .hbm, ⟨109, _⟩ => ⟨S2x1048576, .f32⟩
  | .hbm, ⟨110, _⟩ => ⟨S2x1048576, .f32⟩
  | .hbm, ⟨111, _⟩ => ⟨S_, .f32⟩
  | .hbm, ⟨112, _⟩ => ⟨S2x1048576, .f32⟩
  | .hbm, ⟨113, _⟩ => ⟨S2x1048576, .f32⟩
  | .hbm, ⟨114, _⟩ => ⟨S2x1048576x1, .f32⟩
  | .hbm, ⟨115, _⟩ => ⟨S2x1048576x1, .f32⟩
  | .hbm, ⟨116, _⟩ => ⟨S2x1048576x1, .f32⟩
  | .hbm, ⟨117, _⟩ => ⟨S2x1048576x3, .f32⟩
  | .hbm, ⟨118, _⟩ => ⟨S2x1048576x1x3, .f32⟩
  | .hbm, ⟨119, _⟩ => ⟨S2x1048576x1x3, .f32⟩
  | .hbm, ⟨120, _⟩ => ⟨S2x1048576x1x3, .f32⟩
  | .hbm, ⟨121, _⟩ => ⟨S2x1048576x3x3, .f32⟩
  | .hbm, ⟨122, _⟩ => ⟨S2x1048576x1x3, .f32⟩
  | .hbm, ⟨123, _⟩ => ⟨S2x1048576x3x3, .f32⟩
  | .hbm, ⟨124, _⟩ => ⟨S2x1048576x3x3, .f32⟩
  | .hbm, ⟨125, _⟩ => ⟨S2x1048576x3x3, .f32⟩
  | _, _ => ⟨S2x1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_13 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_14 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_15 : Ref sig .tc := ⟨.hbm, 108, rfl⟩
abbrev main_v85 : Ref sig .tc := ⟨.hbm, 109, rfl⟩
abbrev main_v86 : Ref sig .tc := ⟨.hbm, 110, rfl⟩
abbrev main_cst_16 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩

abbrev nD : Nat := 1
abbrev τ : Topo := Topo.v7x

variable {F : FTy → Type} [FloatOps F]

class Facts₀ : Prop where
  slices_S2x1048576x82_S2x1048576x3_0_0_0 : S2x1048576x82.Slices ![0, 0, 0] S2x1048576x3
  slices_S2x1048576x82_S2x1048576x4_0_0_3 : S2x1048576x82.Slices ![0, 0, 3] S2x1048576x4
  slices_S2x1048576x82_S2x1048576x75_0_0_7 : S2x1048576x82.Slices ![0, 0, 7] S2x1048576x75
  bcast_S_S2x1048576x3 : S_.BroadcastsInDim S2x1048576x3 (![] : Fin 0 → Fin S2x1048576x3.rank)
  reducesTo_S2x1048576x4_S2x1048576_d2 : S2x1048576x4.ReducesTo [2] S2x1048576
  h_S_ : 0 < S_.numel
  bcast_S2x1048576_S2x1048576x1_0_1 : S2x1048576.BroadcastsInDim S2x1048576x1 (![0, 1] : Fin 2 → Fin S2x1048576x1.rank)
  bcast_S_S2x1048576x1 : S_.BroadcastsInDim S2x1048576x1 (![] : Fin 0 → Fin S2x1048576x1.rank)
  bcast_S2x1048576x1_S2x1048576x4_0_1_2 : S2x1048576x1.BroadcastsInDim S2x1048576x4 (![0, 1, 2] : Fin 3 → Fin S2x1048576x4.rank)
  shapeCasts_S2x1048576x75_S2x1048576x3x25 : S2x1048576x75.ShapeCasts S2x1048576x3x25
  bcast_S25_S1x1x1x25_3 : S25.BroadcastsInDim S1x1x1x25 (![3] : Fin 1 → Fin S1x1x1x25.rank)
  bcast_S1x1x1x25_S2x1048576x3x25_0_1_2_3 : S1x1x1x25.BroadcastsInDim S2x1048576x3x25 (![0, 1, 2, 3] : Fin 4 → Fin S2x1048576x3x25.rank)
  slices_S2x1048576x4_S2x1048576x1_0_0_0 : S2x1048576x4.Slices ![0, 0, 0] S2x1048576x1
  shapeCasts_S2x1048576x1_S2x1048576 : S2x1048576x1.ShapeCasts S2x1048576
  slices_S2x1048576x4_S2x1048576x1_0_0_1 : S2x1048576x4.Slices ![0, 0, 1] S2x1048576x1
  slices_S2x1048576x4_S2x1048576x1_0_0_2 : S2x1048576x4.Slices ![0, 0, 2] S2x1048576x1
  slices_S2x1048576x4_S2x1048576x1_0_0_3 : S2x1048576x4.Slices ![0, 0, 3] S2x1048576x1
  bcast_S_S2x1048576 : S_.BroadcastsInDim S2x1048576 (![] : Fin 0 → Fin S2x1048576.rank)
  concatenates_S2x1048576x1_S2x1048576x1_S2x1048576x1_S2x1048576x3_d2 : Shape.Concatenates [S2x1048576x1, S2x1048576x1, S2x1048576x1] S2x1048576x3 2
  bcast_S2x1048576x3_S2x1048576x1x3_0_1_3 : S2x1048576x3.BroadcastsInDim S2x1048576x1x3 (![0, 1, 3] : Fin 3 → Fin S2x1048576x1x3.rank)
  concatenates_S2x1048576x1x3_S2x1048576x1x3_S2x1048576x1x3_S2x1048576x3x3_d2 : Shape.Concatenates [S2x1048576x1x3, S2x1048576x1x3, S2x1048576x1x3] S2x1048576x3x3 2
  bcast_S2x1048576x1x3_S2x1048576x3x3_0_1_2_3 : S2x1048576x1x3.BroadcastsInDim S2x1048576x3x3 (![0, 1, 2, 3] : Fin 4 → Fin S2x1048576x3x3.rank)
  dot_S2x1048576x3x3_S2x1048576x3x3_S2x1048576x3x3_3_3_2_2_01_01_wf : DotDims.WF S2x1048576x3x3 S2x1048576x3x3 S2x1048576x3x3 [3] [3] [2] [2] [0, 1] [0, 1]

variable [Facts₀]

def dot_S2x1048576x3x3_S2x1048576x3x3_S2x1048576x3x3_3_3_2_2_01_01 : DotDims S2x1048576x3x3 S2x1048576x3x3 S2x1048576x3x3 where
  lhsContracting := [3]
  rhsContracting := [3]
  lhsNonContracting := [2]
  rhsNonContracting := [2]
  lhsBatch := [0, 1]
  rhsBatch := [0, 1]
  wf := dot_S2x1048576x3x3_S2x1048576x3x3_S2x1048576x3x3_3_3_2_2_01_01_wf

class Facts : Prop extends Facts₀ where

variable [Facts]
-- ==== Proof.RowSpec.lean ====
/-
  One Gaussian's parameters from its raw row, over the extended reals.

  A raw row holds 82 numbers: three scale logits, a quaternion (r, i, j, k) and 75 harmonics.
  The scale of a logit x is 1/2 + 29/2 · σ(x), σ the logistic function; the quaternion is divided by its
  Euclidean norm plus a small constant; the rotation R(q) has the usual nine entries, each a polynomial of
  degree two in (r, i, j, k); M = R · diag(s) scales column j by s j; and the covariance is M Mᵀ, entry
  (a, b) the sum over j of M a j · M b j. The harmonics are multiplied entry by entry by a fixed table.

  Nothing here is evaluated: the five constants stay the words they are printed as, and only the word of 1
  is read (for σ written out as 1 / (1 + e^(-x))). The two ways the programs spell the covariance — nine
  explicit three-term sums with the lower triangle copied from the upper, and one contraction — agree because
  multiplication of extended reals commutes.
-/
import Idealize.ShloMosaic.PureOps.Ideal
import Idealize.ShloMosaic.Lib.IdealHost
import Mathlib.Algebra.BigOperators.Fin

noncomputable section

open scoped BigOperators

namespace Cert.Gauss

open Idealize.ShloMosaic

/-- The constant 1, as its word. -/
abbrev cOne : EReal := Ideal.ofBits .f32 0x3F800000#32
/-- The constant 2, as its word. -/
abbrev cTwo : EReal := Ideal.ofBits .f32 0x40000000#32
/-- The lower end 1/2 of the scale range, as its word. -/
abbrev cHalf : EReal := Ideal.ofBits .f32 0x3F000000#32
/-- The width 29/2 of the scale range, as its word. -/
abbrev cSpan : EReal := Ideal.ofBits .f32 0x41680000#32
/-- The constant added to the quaternion's norm, as its word. -/
abbrev cEps : EReal := Ideal.ofBits .f32 0x322BCC77#32
/-- The zero a sum starts from, as its word. -/
abbrev cZero : EReal := Ideal.ofBits .f32 0x00000000#32

/-- The scale of a logit: 1/2 + 29/2 · σ(x). -/
def scaleOf (x : EReal) : EReal := cHalf + cSpan * Ideal.logistic x

/-- σ written out as 1 / (1 + e^(-x)) gives the same scale. -/
theorem scaleOf_expanded (x : EReal) :
    cHalf + cSpan * Ideal.div cOne (cOne + Ideal.exp (-x)) = scaleOf x := by
  unfold scaleOf Ideal.logistic cOne
  rw [Ideal.ofBits_one_f32]

/-- The quaternion's norm plus the small constant. -/
def qnorm (q : Fin 4 → EReal) : EReal := Ideal.sqrt (∑ k : Fin 4, q k * q k) + cEps

/-- The normalized quaternion. -/
def quatOf (q : Fin 4 → EReal) (k : Fin 4) : EReal := Ideal.div (q k) (qnorm q)

/-- The rotation matrix of a quaternion u = (r, i, j, k). -/
def rot (u : Fin 4 → EReal) : Fin 3 → Fin 3 → EReal
  | 0, 0 => cOne - cTwo * (u 2 * u 2 + u 3 * u 3)
  | 0, 1 => cTwo * (u 1 * u 2 - u 3 * u 0)
  | 0, 2 => cTwo * (u 1 * u 3 + u 2 * u 0)
  | 1, 0 => cTwo * (u 1 * u 2 + u 3 * u 0)
  | 1, 1 => cOne - cTwo * (u 1 * u 1 + u 3 * u 3)
  | 1, 2 => cTwo * (u 2 * u 3 - u 1 * u 0)
  | 2, 0 => cTwo * (u 1 * u 3 - u 2 * u 0)
  | 2, 1 => cTwo * (u 2 * u 3 + u 1 * u 0)
  | 2, 2 => cOne - cTwo * (u 1 * u 1 + u 2 * u 2)

/-- The rotation with column j scaled by s j. -/
def mrot (u : Fin 4 → EReal) (s : Fin 3 → EReal) (a j : Fin 3) : EReal := rot u a j * s j

/-- The covariance M Mᵀ. -/
def covOf (u : Fin 4 → EReal) (s : Fin 3 → EReal) (a b : Fin 3) : EReal := ∑ j : Fin 3, mrot u s a j * mrot u s b j

/-- An entry of M Mᵀ is the three-term sum, added left to right. -/
theorem covOf_eq (u : Fin 4 → EReal) (s : Fin 3 → EReal) (a b : Fin 3) :
    covOf u s a b = mrot u s a 0 * mrot u s b 0 + mrot u s a 1 * mrot u s b 1 + mrot u s a 2 * mrot u s b 2 := by
  unfold covOf
  rw [Fin.sum_univ_three]

/-- M Mᵀ is symmetric. -/
theorem covOf_symm (u : Fin 4 → EReal) (s : Fin 3 → EReal) (a b : Fin 3) : covOf u s a b = covOf u s b a := by
  unfold covOf
  exact Finset.sum_congr rfl fun j _ => mul_comm _ _

/-- The nine covariance entries laid out in a row of nine: position 3a + b holds entry (a, b). -/
def covFlat (u : Fin 4 → EReal) (s : Fin 3 → EReal) (p : Fin 9) : EReal :=
  covOf u s ⟨p.val / 3, by have := p.isLt; omega⟩ ⟨p.val % 3, by have := p.isLt; omega⟩

/-- The sum of a quaternion's four squares, added left to right from the starting zero. -/
theorem sumsq_eq (q : Fin 4 → EReal) :
    ∑ k : Fin 4, q k * q k = q 0 * q 0 + q 1 * q 1 + q 2 * q 2 + q 3 * q 3 := by
  rw [Fin.sum_univ_four]

end Cert.Gauss

end
-- ==== Proof.LibRowSum.lean ====
/-
  A general lemma for reading a kernel's lane reduction at an index, at the ideal instance.

  * `multiReduction_add_rows_apply`: the sum of an [R, K] single-precision vector along its last axis, accumulated
    from the zero word, read at row r, is the sum over k of the vector at (r, k).
-/
import Idealize.ShloMosaic.PureOps.Ideal.Laws
import Idealize.ShloMosaic.Lib.ValueIdx

noncomputable section

namespace Cert.LibRowSum

open Idealize.ShloMosaic Idealize.ShloMosaic.ValueIdx

/-- A row-wise add reduction of an [R, K] vector read at row r: ∑ₖ v (r, k). -/
theorem multiReduction_add_rows_apply {R K : ℕ} (v : FVec Ideal ⟨2, ![R, K]⟩ .f32)
    (h : (⟨2, ![R, K]⟩ : Shape).Reduces [1] ⟨1, ![R]⟩) (hφ : FKind.Formats .f32)
    (hacc : (0x00000000#32 : BitVec 32) = FKind.add.neutral .f32 hφ) (r : Fin R) :
    multiReduction .add [1] ⟨1, ![R]⟩ v 0x00000000#32 h hφ hacc (ix1 r) = ∑ k : Fin K, v (ix2 r k) := by
  refine (Ideal.multiReduction_add_single v _ h hφ hacc (ix1 r)).trans ?_
  refine Finset.sum_congr rfl fun k _ => ?_
  exact congrArg v (funext fun a => Fin.ext (by match a with | ⟨0, _⟩ => rfl | ⟨1, _⟩ => rfl))

end Cert.LibRowSum

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelPay.lean ====
/-
  The kernel body's values read at one row.

  The body loads a block of 2048 raw rows and a one-row table, and stores four blocks. Every value it computes at
  row p depends on row p of the raw block only: the scales are the scale of each of the first three entries; the
  stored quaternion is entries 3 to 6 divided by their norm plus the small constant; the nine rotation entries, the
  nine scaled entries and the covariance are built from those, one column at a time; the harmonics are entries 7
  to 81 times the table. Each lemma below reads one of the body's named values at row p.
-/
import proofs.«138605_j38001870635883_1_alg».proof.Proof.Gen.KernelIdeal.Skeleton
import proofs.«138605_j38001870635883_1_alg».proof.Proof.RowSpec
import proofs.«138605_j38001870635883_1_alg».proof.Proof.LibRowSum
import proofs.«138605_j38001870635883_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Gauss

/-- Row p's quaternion entries (columns 3 to 6 of the raw block). -/
def qrow (x0 : Vec Ideal S2048x82 .f32) (p : Fin 2048) : Fin 4 → EReal :=
  fun k => (x0 (ix2 p (⟨3 + k.val, by omega⟩ : Fin 82)) : EReal)

/-- Row p's three scales. -/
def srow (x0 : Vec Ideal S2048x82 .f32) (p : Fin 2048) : Fin 3 → EReal :=
  fun a => scaleOf (x0 (ix2 p (⟨a.val, by omega⟩ : Fin 82)) : EReal)

/-- Row p's normalized quaternion. -/
def urow (x0 : Vec Ideal S2048x82 .f32) (p : Fin 2048) : Fin 4 → EReal := quatOf (qrow x0 p)

/-- The loaded block recast to its own shape is itself. -/
theorem pay3_eq (x0 : Vec Ideal S2048x82 .f32) : k0_pay3 (F := Ideal) x0 = x0 := by
  unfold k0_pay3
  exact shapeCast_self _ _

/-- The harmonics' columns: entry (p, d) is the raw block at (p, 7 + d). -/
theorem pay4_at (x0 : Vec Ideal S2048x82 .f32) (p : Fin 2048) (d : Fin 75) :
    k0_pay4 (F := Ideal) x0 (ix2 p d) = x0 (ix2 p (⟨7 + d.val, by omega⟩ : Fin 82)) := by
  unfold k0_pay4
  rw [pay3_eq]
  exact slice2_axis1_apply 7 x0 _ p d _ rfl

/-- The stored scales at (p, a): the scale of the raw entry (p, a). -/
theorem pay5_at (x0 : Vec Ideal S2048x82 .f32) (p : Fin 2048) (a : Fin 3) :
    k0_pay5 (F := Ideal) x0 (ix2 p a) = srow x0 p a := by
  unfold k0_pay5
  rw [pay3_eq]
  show cHalf + cSpan * Ideal.logistic (extractStridedSlice S2048x3 ![0, 0] x0 _ (ix2 p a)) = _
  rw [slice2_axis1_apply 0 x0 _ p a (⟨a.val, by omega⟩ : Fin 82) (by simp)]
  rfl

/-- The quaternion columns of the raw block: entry (p, k) is the raw block at (p, 3 + k). -/
theorem qslice_at (x0 : Vec Ideal S2048x82 .f32) (h : S2048x82.Slices ![0, 3] S2048x4) (p : Fin 2048) (k : Fin 4) :
    extractStridedSlice S2048x4 ![0, 3] x0 h (ix2 p k) = qrow x0 p k :=
  slice2_axis1_apply 3 x0 h p k _ rfl

/-- The stored quaternion at (p, k): entry k of row p's quaternion over its norm plus the small constant. -/
theorem pay6_at (x0 : Vec Ideal S2048x82 .f32) (p : Fin 2048) (k : Fin 4) :
    k0_pay6 (F := Ideal) x0 (ix2 p k) = urow x0 p k := by
  unfold k0_pay6
  rw [pay3_eq]
  show Ideal.div (extractStridedSlice S2048x4 ![0, 3] x0 _ (ix2 p k)) (broadcastTo S2048x4 _ _ (ix2 p k)) = _
  rw [Cert.Lib.broadcastTo_a1_ab_apply, qslice_at]
  show Ideal.div _ (Ideal.sqrt (shapeCast S2048x1 _ _ (ix2 p (0 : Fin 1))) + cEps) = _
  rw [Cert.Lib.shapeCast_a_a1_apply]
  have hsum := Cert.LibRowSum.multiReduction_add_rows_apply (R := 2048) (K := 4)
    (mulf (extractStridedSlice S2048x4 ![0, 3] x0 Facts₀.slices_S2048x82_o0_3_S2048x4)
      (extractStridedSlice S2048x4 ![0, 3] x0 Facts₀.slices_S2048x82_o0_3_S2048x4))
    Facts₀.reduces_S2048x4_S2048 (.inl rfl) rfl p
  refine (congrArg (fun t => Ideal.div (qrow x0 p k) (Ideal.sqrt t + cEps)) hsum).trans ?_
  unfold urow quatOf qnorm
  refine congrArg (fun t => Ideal.div (qrow x0 p k) (Ideal.sqrt t + cEps)) ?_
  refine Finset.sum_congr rfl fun k' _ => ?_
  show extractStridedSlice S2048x4 ![0, 3] x0 _ (ix2 p k') * extractStridedSlice S2048x4 ![0, 3] x0 _ (ix2 p k') = _
  rw [qslice_at]

/-- Column k of a four-column block, as a one-column block, read at row p. -/
theorem col4_at (v : FVec Ideal S2048x4 .f32) (o : Nat) (ho : o < 4) (h : S2048x4.Slices ![0, o] S2048x1) (p : Fin 2048) (z : Fin 1) :
    extractStridedSlice S2048x1 ![0, o] v h (ix2 p z) = v (ix2 p (⟨o, ho⟩ : Fin 4)) :=
  slice2_axis1_apply o v h p z _ (by show o = o + z.val; omega)

/-- Column a of a three-column block, as a one-column block, read at row p. -/
theorem col3_at (v : FVec Ideal S2048x3 .f32) (o : Nat) (ho : o < 3) (h : S2048x3.Slices ![0, o] S2048x1) (p : Fin 2048) (z : Fin 1) :
    extractStridedSlice S2048x1 ![0, o] v h (ix2 p z) = v (ix2 p (⟨o, ho⟩ : Fin 3)) :=
  slice2_axis1_apply o v h p z _ (by show o = o + z.val; omega)

variable (x0 : Vec Ideal S2048x82 .f32) (p : Fin 2048) (z : Fin 1)

/-- The four quaternion components of row p. -/
theorem u0_at : k0_pay7 (F := Ideal) x0 (ix2 p z) = urow x0 p 0 := by
  unfold k0_pay7; rw [col4_at _ 0 (by omega)]; exact pay6_at x0 p _
theorem u1_at : k0_pay8 (F := Ideal) x0 (ix2 p z) = urow x0 p 1 := by
  unfold k0_pay8; rw [col4_at _ 1 (by omega)]; exact pay6_at x0 p _
theorem u2_at : k0_pay9 (F := Ideal) x0 (ix2 p z) = urow x0 p 2 := by
  unfold k0_pay9; rw [col4_at _ 2 (by omega)]; exact pay6_at x0 p _
theorem u3_at : k0_pay10 (F := Ideal) x0 (ix2 p z) = urow x0 p 3 := by
  unfold k0_pay10; rw [col4_at _ 3 (by omega)]; exact pay6_at x0 p _

/-- The three scales of row p. -/
theorem s0_at : k0_pay16 (F := Ideal) (k0_pay5 x0) (ix2 p z) = srow x0 p 0 := by
  unfold k0_pay16; rw [col3_at _ 0 (by omega)]; exact pay5_at x0 p _
theorem s1_at : k0_pay17 (F := Ideal) (k0_pay5 x0) (ix2 p z) = srow x0 p 1 := by
  unfold k0_pay17; rw [col3_at _ 1 (by omega)]; exact pay5_at x0 p _
theorem s2_at : k0_pay18 (F := Ideal) (k0_pay5 x0) (ix2 p z) = srow x0 p 2 := by
  unfold k0_pay18; rw [col3_at _ 2 (by omega)]; exact pay5_at x0 p _

/-- The first four rotation entries of row p, and the sum of squares the fifth is made from. -/
theorem r00_at : k0_pay11 (F := Ideal) x0 (ix2 p z) = rot (urow x0 p) 0 0 := by
  unfold k0_pay11
  show cOne - cTwo * (k0_pay9 x0 (ix2 p z) * k0_pay9 x0 (ix2 p z) + k0_pay10 x0 (ix2 p z) * k0_pay10 x0 (ix2 p z)) = _
  rw [u2_at, u3_at]; rfl
theorem r01_at : k0_pay12 (F := Ideal) x0 (ix2 p z) = rot (urow x0 p) 0 1 := by
  unfold k0_pay12
  show cTwo * (k0_pay8 x0 (ix2 p z) * k0_pay9 x0 (ix2 p z) - k0_pay10 x0 (ix2 p z) * k0_pay7 x0 (ix2 p z)) = _
  rw [u0_at, u1_at, u2_at, u3_at]; rfl
theorem r02_at : k0_pay13 (F := Ideal) x0 (ix2 p z) = rot (urow x0 p) 0 2 := by
  unfold k0_pay13
  show cTwo * (k0_pay8 x0 (ix2 p z) * k0_pay10 x0 (ix2 p z) + k0_pay9 x0 (ix2 p z) * k0_pay7 x0 (ix2 p z)) = _
  rw [u0_at, u1_at, u2_at, u3_at]; rfl
theorem r10_at : k0_pay14 (F := Ideal) x0 (ix2 p z) = rot (urow x0 p) 1 0 := by
  unfold k0_pay14
  show cTwo * (k0_pay8 x0 (ix2 p z) * k0_pay9 x0 (ix2 p z) + k0_pay10 x0 (ix2 p z) * k0_pay7 x0 (ix2 p z)) = _
  rw [u0_at, u1_at, u2_at, u3_at]; rfl
theorem sq13_at : k0_pay15 (F := Ideal) x0 (ix2 p z) = urow x0 p 1 * urow x0 p 1 + urow x0 p 3 * urow x0 p 3 := by
  unfold k0_pay15
  show k0_pay8 x0 (ix2 p z) * k0_pay8 x0 (ix2 p z) + k0_pay10 x0 (ix2 p z) * k0_pay10 x0 (ix2 p z) = _
  rw [u1_at, u3_at]

/-- The nine scaled rotation entries of row p. -/
theorem m00_at : k0_pay19 (F := Ideal) (k0_pay5 x0) (k0_pay11 x0) (ix2 p z) = mrot (urow x0 p) (srow x0 p) 0 0 := by
  unfold k0_pay19
  show k0_pay11 x0 (ix2 p z) * k0_pay16 (k0_pay5 x0) (ix2 p z) = _
  rw [r00_at, s0_at]; rfl
theorem m01_at : k0_pay20 (F := Ideal) (k0_pay5 x0) (k0_pay12 x0) (ix2 p z) = mrot (urow x0 p) (srow x0 p) 0 1 := by
  unfold k0_pay20
  show k0_pay12 x0 (ix2 p z) * k0_pay17 (k0_pay5 x0) (ix2 p z) = _
  rw [r01_at, s1_at]; rfl
theorem m02_at : k0_pay21 (F := Ideal) (k0_pay5 x0) (k0_pay13 x0) (ix2 p z) = mrot (urow x0 p) (srow x0 p) 0 2 := by
  unfold k0_pay21
  show k0_pay13 x0 (ix2 p z) * k0_pay18 (k0_pay5 x0) (ix2 p z) = _
  rw [r02_at, s2_at]; rfl
theorem m10_at : k0_pay22 (F := Ideal) (k0_pay5 x0) (k0_pay14 x0) (ix2 p z) = mrot (urow x0 p) (srow x0 p) 1 0 := by
  unfold k0_pay22
  show k0_pay14 x0 (ix2 p z) * k0_pay16 (k0_pay5 x0) (ix2 p z) = _
  rw [r10_at, s0_at]; rfl
theorem m11_at : k0_pay23 (F := Ideal) (k0_pay5 x0) (k0_pay15 x0) (Scalar.ofBits .f32 0x40000000#32) (ix2 p z)
    = mrot (urow x0 p) (srow x0 p) 1 1 := by
  unfold k0_pay23
  show (cOne - cTwo * k0_pay15 x0 (ix2 p z)) * k0_pay17 (k0_pay5 x0) (ix2 p z) = _
  rw [sq13_at, s1_at]; rfl
theorem m12_at : k0_pay24 (F := Ideal) (k0_pay5 x0) (k0_pay7 x0) (k0_pay8 x0) (k0_pay9 x0) (k0_pay10 x0) (ix2 p z)
    = mrot (urow x0 p) (srow x0 p) 1 2 := by
  unfold k0_pay24
  show cTwo * (k0_pay9 x0 (ix2 p z) * k0_pay10 x0 (ix2 p z) - k0_pay8 x0 (ix2 p z) * k0_pay7 x0 (ix2 p z)) * k0_pay18 (k0_pay5 x0) (ix2 p z) = _
  rw [u0_at, u1_at, u2_at, u3_at, s2_at]; rfl
theorem m20_at : k0_pay25 (F := Ideal) (k0_pay5 x0) (k0_pay7 x0) (k0_pay8 x0) (k0_pay9 x0) (k0_pay10 x0) (ix2 p z)
    = mrot (urow x0 p) (srow x0 p) 2 0 := by
  unfold k0_pay25
  show cTwo * (k0_pay8 x0 (ix2 p z) * k0_pay10 x0 (ix2 p z) - k0_pay9 x0 (ix2 p z) * k0_pay7 x0 (ix2 p z)) * k0_pay16 (k0_pay5 x0) (ix2 p z) = _
  rw [u0_at, u1_at, u2_at, u3_at, s0_at]; rfl
theorem m21_at : k0_pay26 (F := Ideal) (k0_pay5 x0) (k0_pay7 x0) (k0_pay8 x0) (k0_pay9 x0) (k0_pay10 x0) (ix2 p z)
    = mrot (urow x0 p) (srow x0 p) 2 1 := by
  unfold k0_pay26
  show cTwo * (k0_pay9 x0 (ix2 p z) * k0_pay10 x0 (ix2 p z) + k0_pay8 x0 (ix2 p z) * k0_pay7 x0 (ix2 p z)) * k0_pay17 (k0_pay5 x0) (ix2 p z) = _
  rw [u0_at, u1_at, u2_at, u3_at, s1_at]; rfl
theorem m22_at : k0_pay27 (F := Ideal) (k0_pay5 x0) (k0_pay8 x0) (k0_pay9 x0) (ix2 p z)
    = mrot (urow x0 p) (srow x0 p) 2 2 := by
  unfold k0_pay27
  show (cOne - cTwo * (k0_pay8 x0 (ix2 p z) * k0_pay8 x0 (ix2 p z) + k0_pay9 x0 (ix2 p z) * k0_pay9 x0 (ix2 p z))) * k0_pay18 (k0_pay5 x0) (ix2 p z) = _
  rw [u1_at, u2_at, s2_at]; rfl

end Cert.KernelIdeal.Pay

end
-- ==== Proof.KernelCov.lean ====
/-
  The covariance block read at one entry.

  The body builds the six distinct entries of M Mᵀ for every row — each a three-term sum of products of the
  scaled rotation entries, added left to right — and lays nine one-column blocks side by side, the three entries
  below the diagonal being the ones above it again. Read at row p and column 3a + b the block holds entry (a, b)
  of row p's covariance; below the diagonal that is so because M Mᵀ is symmetric.
-/
import proofs.«138605_j38001870635883_1_alg».proof.Proof.KernelPay

noncomputable section

open scoped BigOperators

namespace Cert.KernelIdeal.Pay

open Idealize.ShloMosaic Idealize.ShloMosaic.ValueIdx Cert.KernelIdeal Cert.KernelIdeal.Gen Cert.Gauss

/-- Nine one-column blocks side by side, read at (p, c): block c at row p. -/
theorem concat9_at (v : Fin 9 → FVec Ideal S2048x1 .f32)
    (h : Shape.Concatenates [S2048x1, S2048x1, S2048x1, S2048x1, S2048x1, S2048x1, S2048x1, S2048x1, S2048x1] S2048x9 1)
    (p : Fin 2048) (c : Fin 9) :
    concatenate S2048x9 1 [⟨S2048x1, v 0⟩, ⟨S2048x1, v 1⟩, ⟨S2048x1, v 2⟩, ⟨S2048x1, v 3⟩, ⟨S2048x1, v 4⟩, ⟨S2048x1, v 5⟩,
      ⟨S2048x1, v 6⟩, ⟨S2048x1, v 7⟩, ⟨S2048x1, v 8⟩] h (ix2 p c) = v c (ix2 p (0 : Fin 1)) :=
  concatenate_ofFn_unit_apply (t := S2048x9) (s₁ := S2048x1) 1 v h rfl rfl (ix2 p c) c rfl (ix2 p (0 : Fin 1))
    (fun b hb => by
      match b with
      | ⟨0, _⟩ => rfl
      | ⟨1, _⟩ => exact absurd rfl hb)

variable (x0 : Vec Ideal S2048x82 .f32) (p : Fin 2048) (z : Fin 1)

/-- Entry (0, 0) of row p's covariance. -/
theorem c00_at : k0_pay28 (F := Ideal) (k0_pay5 x0) (k0_pay11 x0) (k0_pay12 x0) (k0_pay13 x0) (ix2 p z)
    = covOf (urow x0 p) (srow x0 p) 0 0 := by
  unfold k0_pay28
  simp only [mulf_apply, addf_apply, m00_at, m01_at, m02_at]
  rw [covOf_eq]

/-- Entry (0, 1). -/
theorem c01_at : k0_pay29 (F := Ideal) (k0_pay5 x0) (k0_pay7 x0) (k0_pay8 x0) (k0_pay9 x0) (k0_pay10 x0) (k0_pay11 x0)
    (k0_pay12 x0) (k0_pay13 x0) (k0_pay14 x0) (k0_pay15 x0) (Scalar.ofBits .f32 0x40000000#32) (ix2 p z)
    = covOf (urow x0 p) (srow x0 p) 0 1 := by
  unfold k0_pay29
  simp only [mulf_apply, addf_apply, m00_at, m01_at, m02_at, m10_at, m11_at, m12_at]
  rw [covOf_eq]

/-- Entry (0, 2). -/
theorem c02_at : k0_pay30 (F := Ideal) (k0_pay5 x0) (k0_pay7 x0) (k0_pay8 x0) (k0_pay9 x0) (k0_pay10 x0) (k0_pay11 x0)
    (k0_pay12 x0) (k0_pay13 x0) (ix2 p z) = covOf (urow x0 p) (srow x0 p) 0 2 := by
  unfold k0_pay30
  simp only [mulf_apply, addf_apply, m00_at, m01_at, m02_at, m20_at, m21_at, m22_at]
  rw [covOf_eq]

/-- The square of M's entry (1, 0), the first term of entry (1, 1). -/
theorem sq10_at : k0_pay31 (F := Ideal) (k0_pay5 x0) (k0_pay14 x0) (ix2 p z)
    = mrot (urow x0 p) (srow x0 p) 1 0 * mrot (urow x0 p) (srow x0 p) 1 0 := by
  unfold k0_pay31
  simp only [mulf_apply, m10_at]

/-- The covariance block the body stores, as a function of the loaded raw block. -/
abbrev covBlock : FVec Ideal S2048x9 .f32 :=
  k0_pay1 (F := Ideal) (k0_pay22 (k0_pay5 x0) (k0_pay14 x0)) (k0_pay23 (k0_pay5 x0) (k0_pay15 x0) (Scalar.ofBits .f32 0x40000000#32))
    (k0_pay24 (k0_pay5 x0) (k0_pay7 x0) (k0_pay8 x0) (k0_pay9 x0) (k0_pay10 x0))
    (k0_pay25 (k0_pay5 x0) (k0_pay7 x0) (k0_pay8 x0) (k0_pay9 x0) (k0_pay10 x0))
    (k0_pay26 (k0_pay5 x0) (k0_pay7 x0) (k0_pay8 x0) (k0_pay9 x0) (k0_pay10 x0))
    (k0_pay27 (k0_pay5 x0) (k0_pay8 x0) (k0_pay9 x0))
    (k0_pay28 (k0_pay5 x0) (k0_pay11 x0) (k0_pay12 x0) (k0_pay13 x0))
    (k0_pay29 (k0_pay5 x0) (k0_pay7 x0) (k0_pay8 x0) (k0_pay9 x0) (k0_pay10 x0) (k0_pay11 x0) (k0_pay12 x0) (k0_pay13 x0) (k0_pay14 x0) (k0_pay15 x0) (Scalar.ofBits .f32 0x40000000#32))
    (k0_pay30 (k0_pay5 x0) (k0_pay7 x0) (k0_pay8 x0) (k0_pay9 x0) (k0_pay10 x0) (k0_pay11 x0) (k0_pay12 x0) (k0_pay13 x0))
    (k0_pay31 (k0_pay5 x0) (k0_pay14 x0))

/-- The covariance block at (p, 3a + b) is entry (a, b) of row p's covariance. -/
theorem cov_at (c : Fin 9) : covBlock x0 (ix2 p c) = covFlat (urow x0 p) (srow x0 p) c := by
  unfold covBlock k0_pay1
  refine (concat9_at (fun n : Fin 9 => match n with
    | 0 => _ | 1 => _ | 2 => _ | 3 => _ | 4 => _ | 5 => _ | 6 => _ | 7 => _ | 8 => _) _ p c).trans ?_
  fin_cases c
  · exact c00_at x0 p 0
  · exact c01_at x0 p 0
  · exact c02_at x0 p 0
  · exact (c01_at x0 p 0).trans (covOf_symm _ _ 0 1)
  · show _ = covOf (urow x0 p) (srow x0 p) 1 1
    simp only [mulf_apply, addf_apply, sq10_at, m11_at, m12_at]
    rw [covOf_eq]
  · show _ = covOf (urow x0 p) (srow x0 p) 1 2
    simp only [mulf_apply, addf_apply, m10_at, m11_at, m12_at, m20_at, m21_at, m22_at]
    rw [covOf_eq]
  · exact (c02_at x0 p 0).trans (covOf_symm _ _ 0 2)
  · show _ = covOf (urow x0 p) (srow x0 p) 2 1
    simp only [mulf_apply, addf_apply, m10_at, m11_at, m12_at, m20_at, m21_at, m22_at]
    rw [covOf_symm, covOf_eq]
  · show _ = covOf (urow x0 p) (srow x0 p) 2 2
    simp only [mulf_apply, addf_apply, m20_at, m21_at, m22_at]
    rw [covOf_eq]

end Cert.KernelIdeal.Pay

end
-- ==== Proof.Spec.lean ====
/-
  The four computed results as whole arrays: each, index by index, a function of the raw array.

  The raw array holds, for each of 2 batches and 1048576 points, a row of 82 numbers. From row (b, n):
  the scales at (b, n, a) are the scale of entry a; the rotations at (b, n, k) are entry k of the normalized
  quaternion made from entries 3 to 6; the covariances at (b, n, a, c) are entry (a, c) of M Mᵀ for that
  quaternion and those scales; the harmonics at (b, n, a, d) are entry 7 + 25 a + d times entry d of a table of 25.
-/
import proofs.«138605_j38001870635883_1_alg».proof.Proof.RowSpec
import Idealize.ShloMosaic.Lib.ValueIdx

noncomputable section

namespace Cert.Gauss

open Idealize.ShloMosaic Idealize.ShloMosaic.ValueIdx

/-- The quaternion entries of a raw row. -/
def rowQ (x : Fin 82 → EReal) : Fin 4 → EReal := fun k => x ⟨3 + k.val, by omega⟩
/-- The three scales of a raw row. -/
def rowS (x : Fin 82 → EReal) : Fin 3 → EReal := fun a => scaleOf (x ⟨a.val, by omega⟩)
/-- The normalized quaternion of a raw row. -/
def rowU (x : Fin 82 → EReal) : Fin 4 → EReal := quatOf (rowQ x)
/-- The covariance of a raw row. -/
def rowC (x : Fin 82 → EReal) (a c : Fin 3) : EReal := covOf (rowU x) (rowS x) a c
/-- The covariance of a raw row laid out in nine columns. -/
def rowCFlat (x : Fin 82 → EReal) (e : Fin 9) : EReal := covFlat (rowU x) (rowS x) e
/-- The masked harmonics of a raw row: entry 7 + 25 a + d times the table's entry d. -/
def rowH (mk : Fin 25 → EReal) (x : Fin 82 → EReal) (a : Fin 3) (d : Fin 25) : EReal :=
  x ⟨7 + 25 * a.val + d.val, by omega⟩ * mk d
/-- The same laid out in 75 columns against a table of 75. -/
def rowHFlat (mk : Fin 75 → EReal) (x : Fin 82 → EReal) (e : Fin 75) : EReal :=
  x ⟨7 + e.val, by omega⟩ * mk e

/-- Nine-column layout: column 3a + c is entry (a, c). -/
theorem rowCFlat_eq (x : Fin 82 → EReal) (a c : Fin 3) : rowCFlat x ⟨3 * a.val + c.val, by omega⟩ = rowC x a c := by
  unfold rowCFlat rowC covFlat
  congr 1 <;> exact Fin.ext (by simp only []; omega)

/-- The raw array's shape: 2 batches of 1048576 rows of 82. -/
abbrev SRaw : Shape := ⟨3, ![2, 1048576, 82]⟩

/-- Row (b, n) of the raw array. -/
def rawRow (X : SRaw.Idx → EReal) (b : Fin 2) (n : Fin 1048576) : Fin 82 → EReal := fun c => X (ix3 b n c)

/-- The scales. -/
def gScales (X : SRaw.Idx → EReal) : (⟨3, ![2, 1048576, 3]⟩ : Shape).Idx → EReal :=
  fun j => rowS (rawRow X (j 0) (j 1)) (j 2)
/-- The rotations. -/
def gQuat (X : SRaw.Idx → EReal) : (⟨3, ![2, 1048576, 4]⟩ : Shape).Idx → EReal :=
  fun j => rowU (rawRow X (j 0) (j 1)) (j 2)
/-- The covariances. -/
def gCov (X : SRaw.Idx → EReal) : (⟨4, ![2, 1048576, 3, 3]⟩ : Shape).Idx → EReal :=
  fun j => rowC (rawRow X (j 0) (j 1)) (j 2) (j 3)
/-- The harmonics. -/
def gSh (mk : Fin 25 → EReal) (X : SRaw.Idx → EReal) : (⟨4, ![2, 1048576, 3, 25]⟩ : Shape).Idx → EReal :=
  fun j => rowH mk (rawRow X (j 0) (j 1)) (j 2) (j 3)

end Cert.Gauss

end
-- ==== Proof.KernelBlocks.lean ====
/-
  From blocks to arrays.

  The grid has 1024 points; at point t every window but the table's holds rows 2048 t to 2048 t + 2047 of its array,
  all columns, and the table's window holds the whole one-row table. What point t writes back to an output array is
  therefore rows 2048 t … of ONE array: the array whose row r is the body's row function of row r of the raw array.
  Every row r lies in the block of point r / 2048, so after the last point each output array is that array.
-/
import proofs.«138605_j38001870635883_1_alg».proof.Proof.Gen.KernelIdeal.Frame
import proofs.«138605_j38001870635883_1_alg».proof.Proof.KernelCov
import proofs.«138605_j38001870635883_1_alg».proof.Proof.Spec
import Idealize.ShloMosaic.Lib.Pipeline.Value
import Idealize.ShloMosaic.Lib.ValueLayout

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pay Cert.Gauss

variable (m : (ℓ : Loc nD τ sig) → Buf (Elt Ideal) ℓ)

theorem hz : (![0, 0] : Fin 2 → Nat) = fun _ => 0 := funext fun a => by fin_cases a <;> rfl

/-- The array of 2097152 rows whose row r is f of row r of A. -/
def rowsOf {C : Nat} (f : (Fin 82 → EReal) → Fin C → EReal) (A : Vec Ideal S2097152x82 .f32) :
    (⟨2, ![2097152, C]⟩ : Shape).Idx → EReal :=
  fun i => f (fun c => A (ix2 (i 0) c)) (i 1)

/-- A block function that acts row by row, on a block that is rows 2048 t … of A, is rows 2048 t … of rowsOf. -/
theorem block_of_rows {C : Nat} (f : (Fin 82 → EReal) → Fin C → EReal)
    (P : Vec Ideal S2048x82 .f32 → (⟨2, ![2048, C]⟩ : Shape).Idx → EReal)
    (hP : ∀ (x0 : Vec Ideal S2048x82 .f32) (p : Fin 2048) (q : Fin C), P x0 (ix2 p q) = f (fun c => x0 (ix2 p c)) q)
    (x0 : Vec Ideal S2048x82 .f32) (A : Vec Ideal S2097152x82 .f32) (t : Nat)
    (hx : ∀ (p : Fin 2048) (c : Fin 82) (h : 2048 * t + p.val < 2097152), x0 (ix2 p c) = A (ix2 ⟨2048 * t + p.val, h⟩ c))
    (y : (⟨2, ![2048, C]⟩ : Shape).Idx) (i : (⟨2, ![2097152, C]⟩ : Shape).Idx)
    (hi0 : (i 0).val = 2048 * t + (y 0).val) (hi1 : (i 1).val = (y 1).val) :
    P x0 y = rowsOf f A i := by
  obtain ⟨p, q, rfl⟩ : ∃ (p : Fin 2048) (q : Fin C), y = ix2 p q := ⟨y 0, y 1, eq_ix2 y⟩
  obtain ⟨r, q', rfl⟩ : ∃ (r : Fin 2097152) (q' : Fin C), i = ix2 r q' := ⟨i 0, i 1, eq_ix2 i⟩
  have hr : r.val = 2048 * t + p.val := hi0
  have hq : q' = q := Fin.ext hi1
  subst hq
  rw [hP]
  show f (fun c => x0 (ix2 p c)) q' = f (fun c => A (ix2 r c)) q'
  refine congrArg (fun g => f g q') (funext fun c => ?_)
  rw [hx p c (by rw [← hr]; exact r.isLt)]
  exact congrArg (fun r' => A (ix2 r' c)) (Fin.ext hr.symm)

/-- The block indices of the six windows at point t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 1024 := by
  have h := t.isLt
  have e : cfg0.N = 1024 := N_0
  omega

/-- The raw array as the region finds it: 2097152 rows of 82. -/
abbrev A2 (c : Dev nD) : Vec Ideal S2097152x82 .f32 := V m c main_v0
/-- The table as the region finds it, as 75 numbers. -/
def T75 (c : Dev nD) : Fin 75 → EReal := fun e => (V m c main_cst : Vec Ideal S1x75 .f32) (ix2 (0 : Fin 1) e)

/-- The raw window's block at point t is rows 2048 t … of the raw array. -/
theorem iblk0_at (c : Dev nD) (t : Fin cfg0.N) (p : Fin 2048) (q : Fin 82) (h : 2048 * t.val + p.val < 2097152) :
    (iblk m c 0 t : Vec Ideal S2048x82 .f32) (ix2 p q) = A2 m c (ix2 ⟨2048 * t.val + p.val, h⟩ q) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t 0 * 2048 + 1 * p.val = 2048 * t.val + p.val; rw [e0]; omega
  | ⟨1, _⟩ => show win0_0.index t 1 * 82 + 1 * q.val = q.val; rw [e1]; omega

/-- The table's window holds the whole table at every point. -/
theorem iblk1_at (c : Dev nD) (t : Fin cfg0.N) (e : Fin 75) :
    (iblk m c 1 t : Vec Ideal S1x75 .f32) (ix2 (0 : Fin 1) e) = T75 m c e := by
  obtain ⟨-, -, e2, e3, -⟩ := idx_facts t
  unfold iblk T75
  rw [View.read_apply]
  show V m c main_cst _ = V m c main_cst _
  refine congrArg (V m c main_cst) (funext fun a => Fin.ext ?_)
  match a with
  | ⟨0, _⟩ => show win0_1.index t 0 * 1 + 1 * 0 = 0; rw [e2]
  | ⟨1, _⟩ => show win0_1.index t 1 * 75 + 1 * e.val = e.val; rw [e3]; omega

/-- The harmonics the body stores: entry (p, e) is the raw block at (p, 7 + e) times the table at e. -/
theorem pay2_at (x0 : Vec Ideal S2048x82 .f32) (x1 : Vec Ideal S1x75 .f32) (p : Fin 2048) (e : Fin 75) :
    k0_pay2 (F := Ideal) (k0_pay4 x0) x1 (ix2 p e)
      = rowHFlat (fun e' => x1 (ix2 (0 : Fin 1) e')) (fun c => x0 (ix2 p c)) e := by
  unfold k0_pay2
  show k0_pay4 x0 (ix2 p e) * broadcastTo S2048x75 x1 _ (ix2 p e) = _
  rw [pay4_at, broadcastTo_1b_ab_apply]
  rfl

/-- What point t writes back to window 3's array is rows 2048 t … of the row-by-row array. -/
theorem flushed3_eq (c : Dev nD) (t : Fin cfg0.N) :
    (dats m 0 c).flushed 3 t = ((cfg0.win 3).blk t).view.read (Elt Ideal) (rowsOf rowS (A2 m c)) := by
  show (cfg0.win 3).cut (grid0.coords t) ((dats m 0 c).after 3 t) = _
  rw [after0_3]
  unfold out0_3
  rw [View.canon_unit_zero hz]
  simp only [View.ld_unit_zero (S := S2048x82) hz]
  obtain ⟨-, -, -, -, e4, e5, e6, e7, e8, e9, e10, e11⟩ := idx_facts t
  funext y
  refine block_of_rows rowS (fun x0 => k0_pay5 (F := Ideal) x0) (fun x0 p q => pay5_at x0 p q)
    (iblk m c 0 t) (A2 m c) t.val (fun p q h => iblk0_at m c t p q h) y _ ?_ ?_
  · show win0_3.index t 0 * 2048 + 1 * (y 0).val = 2048 * t.val + (y 0).val
    omega
  · show win0_3.index t 1 * 3 + 1 * (y 1).val = (y 1).val
    omega

/-- An index of window 3's array lies in point t's block iff its row is one of rows 2048 t …. -/
theorem mem_blk3 (t : Fin cfg0.N) (i : S2097152x3.Idx) :
    i ∈ ((cfg0.win 3).blk t).view.set ↔ ∀ a : Fin 2, win0_3.index t a * S2048x3.size a ≤ (i a).val ∧ (i a).val < win0_3.index t a * S2048x3.size a + S2048x3.size a := by
  show i ∈ ((View.whole main_v1_1).slice (win0_3.rect t)).set ↔ _
  rw [View.set_slice_whole, Rect.mem_set_unit]
  exact Iff.rfl

/-- Every index of window 3's array is in the block of the point its row names. -/
theorem cover3 (i : S2097152x3.Idx) :
    ∃ t : Fin cfg0.N, (cfg0.win 3).flush t = true ∧ i ∈ ((cfg0.win 3).blk t).view.set := by
  have hi0 : (i 0).val < 2097152 := (i 0).isLt
  have hi1 : (i 1).val < 3 := (i 1).isLt
  have hN : cfg0.N = 1024 := N_0
  let t : Fin cfg0.N := ⟨(i 0).val / 2048, by omega⟩
  have htv : t.val = (i 0).val / 2048 := rfl
  obtain ⟨-, -, -, -, e4, e5, e6, e7, e8, e9, e10, e11⟩ := idx_facts t
  refine ⟨t, flush0_3 t, ?_⟩
  rw [mem_blk3]
  intro a
  match a with
  | ⟨0, _⟩ =>
    show win0_3.index t 0 * 2048 ≤ (i 0).val ∧ (i 0).val < win0_3.index t 0 * 2048 + 2048
    omega
  | ⟨1, _⟩ =>
    show win0_3.index t 1 * 3 ≤ (i 1).val ∧ (i 1).val < win0_3.index t 1 * 3 + 3
    omega

/-- Window 3's array after the last point. -/
theorem final3 (c : Dev nD) : (dats m 0 c).arrAt 3 cfg0.N = rowsOf rowS (A2 m c) :=
  (dats m 0 c).arrAt_eq_of_cover 3 (rowsOf rowS (A2 m c)) (fun t _ => flushed3_eq m c t) cover3

/-- What point t writes back to window 4's array is rows 2048 t … of the row-by-row array. -/
theorem flushed4_eq (c : Dev nD) (t : Fin cfg0.N) :
    (dats m 0 c).flushed 4 t = ((cfg0.win 4).blk t).view.read (Elt Ideal) (rowsOf rowU (A2 m c)) := by
  show (cfg0.win 4).cut (grid0.coords t) ((dats m 0 c).after 4 t) = _
  rw [after0_4]
  unfold out0_4
  rw [View.canon_unit_zero hz]
  simp only [View.ld_unit_zero (S := S2048x82) hz]
  obtain ⟨-, -, -, -, e4, e5, e6, e7, e8, e9, e10, e11⟩ := idx_facts t
  funext y
  refine block_of_rows rowU (fun x0 => k0_pay6 (F := Ideal) x0) (fun x0 p q => pay6_at x0 p q)
    (iblk m c 0 t) (A2 m c) t.val (fun p q h => iblk0_at m c t p q h) y _ ?_ ?_
  · show win0_4.index t 0 * 2048 + 1 * (y 0).val = 2048 * t.val + (y 0).val
    omega
  · show win0_4.index t 1 * 4 + 1 * (y 1).val = (y 1).val
    omega

/-- An index of window 4's array lies in point t's block iff its row is one of rows 2048 t …. -/
theorem mem_blk4 (t : Fin cfg0.N) (i : S2097152x4.Idx) :
    i ∈ ((cfg0.win 4).blk t).view.set ↔ ∀ a : Fin 2, win0_4.index t a * S2048x4.size a ≤ (i a).val ∧ (i a).val < win0_4.index t a * S2048x4.size a + S2048x4.size a := by
  show i ∈ ((View.whole main_v1_2).slice (win0_4.rect t)).set ↔ _
  rw [View.set_slice_whole, Rect.mem_set_unit]
  exact Iff.rfl

/-- Every index of window 4's array is in the block of the point its row names. -/
theorem cover4 (i : S2097152x4.Idx) :
    ∃ t : Fin cfg0.N, (cfg0.win 4).flush t = true ∧ i ∈ ((cfg0.win 4).blk t).view.set := by
  have hi0 : (i 0).val < 2097152 := (i 0).isLt
  have hi1 : (i 1).val < 4 := (i 1).isLt
  have hN : cfg0.N = 1024 := N_0
  let t : Fin cfg0.N := ⟨(i 0).val / 2048, by omega⟩
  have htv : t.val = (i 0).val / 2048 := rfl
  obtain ⟨-, -, -, -, e4, e5, e6, e7, e8, e9, e10, e11⟩ := idx_facts t
  refine ⟨t, flush0_4 t, ?_⟩
  rw [mem_blk4]
  intro a
  match a with
  | ⟨0, _⟩ =>
    show win0_4.index t 0 * 2048 ≤ (i 0).val ∧ (i 0).val < win0_4.index t 0 * 2048 + 2048
    omega
  | ⟨1, _⟩ =>
    show win0_4.index t 1 * 4 ≤ (i 1).val ∧ (i 1).val < win0_4.index t 1 * 4 + 4
    omega

/-- Window 4's array after the last point. -/
theorem final4 (c : Dev nD) : (dats m 0 c).arrAt 4 cfg0.N = rowsOf rowU (A2 m c) :=
  (dats m 0 c).arrAt_eq_of_cover 4 (rowsOf rowU (A2 m c)) (fun t _ => flushed4_eq m c t) cover4

/-- What point t writes back to window 2's array is rows 2048 t … of the row-by-row array. -/
theorem flushed2_eq (c : Dev nD) (t : Fin cfg0.N) :
    (dats m 0 c).flushed 2 t = ((cfg0.win 2).blk t).view.read (Elt Ideal) (rowsOf rowCFlat (A2 m c)) := by
  show (cfg0.win 2).cut (grid0.coords t) ((dats m 0 c).after 2 t) = _
  rw [after0_2]
  unfold out0_2
  rw [View.canon_unit_zero hz]
  simp only [View.ld_unit_zero (S := S2048x82) hz]
  obtain ⟨-, -, -, -, e4, e5, e6, e7, e8, e9, e10, e11⟩ := idx_facts t
  funext y
  refine block_of_rows rowCFlat (fun x0 => covBlock x0) (fun x0 p q => cov_at x0 p q)
    (iblk m c 0 t) (A2 m c) t.val (fun p q h => iblk0_at m c t p q h) y _ ?_ ?_
  · show win0_2.index t 0 * 2048 + 1 * (y 0).val = 2048 * t.val + (y 0).val
    omega
  · show win0_2.index t 1 * 9 + 1 * (y 1).val = (y 1).val
    omega

/-- An index of window 2's array lies in point t's block iff its row is one of rows 2048 t …. -/
theorem mem_blk2 (t : Fin cfg0.N) (i : S2097152x9.Idx) :
    i ∈ ((cfg0.win 2).blk t).view.set ↔ ∀ a : Fin 2, win0_2.index t a * S2048x9.size a ≤ (i a).val ∧ (i a).val < win0_2.index t a * S2048x9.size a + S2048x9.size a := by
  show i ∈ ((View.whole main_v1_0).slice (win0_2.rect t)).set ↔ _
  rw [View.set_slice_whole, Rect.mem_set_unit]
  exact Iff.rfl

/-- Every index of window 2's array is in the block of the point its row names. -/
theorem cover2 (i : S2097152x9.Idx) :
    ∃ t : Fin cfg0.N, (cfg0.win 2).flush t = true ∧ i ∈ ((cfg0.win 2).blk t).view.set := by
  have hi0 : (i 0).val < 2097152 := (i 0).isLt
  have hi1 : (i 1).val < 9 := (i 1).isLt
  have hN : cfg0.N = 1024 := N_0
  let t : Fin cfg0.N := ⟨(i 0).val / 2048, by omega⟩
  have htv : t.val = (i 0).val / 2048 := rfl
  obtain ⟨-, -, -, -, e4, e5, e6, e7, e8, e9, e10, e11⟩ := idx_facts t
  refine ⟨t, flush0_2 t, ?_⟩
  rw [mem_blk2]
  intro a
  match a with
  | ⟨0, _⟩ =>
    show win0_2.index t 0 * 2048 ≤ (i 0).val ∧ (i 0).val < win0_2.index t 0 * 2048 + 2048
    omega
  | ⟨1, _⟩ =>
    show win0_2.index t 1 * 9 ≤ (i 1).val ∧ (i 1).val < win0_2.index t 1 * 9 + 9
    omega

/-- Window 2's array after the last point. -/
theorem final2 (c : Dev nD) : (dats m 0 c).arrAt 2 cfg0.N = rowsOf rowCFlat (A2 m c) :=
  (dats m 0 c).arrAt_eq_of_cover 2 (rowsOf rowCFlat (A2 m c)) (fun t _ => flushed2_eq m c t) cover2

/-- What point t writes back to window 5's array is rows 2048 t … of the row-by-row array. -/
theorem flushed5_eq (c : Dev nD) (t : Fin cfg0.N) :
    (dats m 0 c).flushed 5 t = ((cfg0.win 5).blk t).view.read (Elt Ideal) (rowsOf (rowHFlat (T75 m c)) (A2 m c)) := by
  show (cfg0.win 5).cut (grid0.coords t) ((dats m 0 c).after 5 t) = _
  rw [after0_5]
  unfold out0_5
  rw [View.canon_unit_zero hz]
  simp only [View.ld_unit_zero (S := S2048x82) hz, View.ld_unit_zero (S := S1x75) hz]
  obtain ⟨-, -, -, -, e4, e5, e6, e7, e8, e9, e10, e11⟩ := idx_facts t
  funext y
  refine block_of_rows (rowHFlat (T75 m c)) (fun x0 => k0_pay2 (F := Ideal) (k0_pay4 x0) (iblk m c 1 t)) (fun x0 p q => (pay2_at x0 (iblk m c 1 t) p q).trans (by rw [show (fun e' => (iblk m c 1 t : Vec Ideal S1x75 .f32) (ix2 (0 : Fin 1) e')) = T75 m c from funext fun e' => iblk1_at m c t e']))
    (iblk m c 0 t) (A2 m c) t.val (fun p q h => iblk0_at m c t p q h) y _ ?_ ?_
  · show win0_5.index t 0 * 2048 + 1 * (y 0).val = 2048 * t.val + (y 0).val
    omega
  · show win0_5.index t 1 * 75 + 1 * (y 1).val = (y 1).val
    omega

/-- An index of window 5's array lies in point t's block iff its row is one of rows 2048 t …. -/
theorem mem_blk5 (t : Fin cfg0.N) (i : S2097152x75.Idx) :
    i ∈ ((cfg0.win 5).blk t).view.set ↔ ∀ a : Fin 2, win0_5.index t a * S2048x75.size a ≤ (i a).val ∧ (i a).val < win0_5.index t a * S2048x75.size a + S2048x75.size a := by
  show i ∈ ((View.whole main_v1_3).slice (win0_5.rect t)).set ↔ _
  rw [View.set_slice_whole, Rect.mem_set_unit]
  exact Iff.rfl

/-- Every index of window 5's array is in the block of the point its row names. -/
theorem cover5 (i : S2097152x75.Idx) :
    ∃ t : Fin cfg0.N, (cfg0.win 5).flush t = true ∧ i ∈ ((cfg0.win 5).blk t).view.set := by
  have hi0 : (i 0).val < 2097152 := (i 0).isLt
  have hi1 : (i 1).val < 75 := (i 1).isLt
  have hN : cfg0.N = 1024 := N_0
  let t : Fin cfg0.N := ⟨(i 0).val / 2048, by omega⟩
  have htv : t.val = (i 0).val / 2048 := rfl
  obtain ⟨-, -, -, -, e4, e5, e6, e7, e8, e9, e10, e11⟩ := idx_facts t
  refine ⟨t, flush0_5 t, ?_⟩
  rw [mem_blk5]
  intro a
  match a with
  | ⟨0, _⟩ =>
    show win0_5.index t 0 * 2048 ≤ (i 0).val ∧ (i 0).val < win0_5.index t 0 * 2048 + 2048
    omega
  | ⟨1, _⟩ =>
    show win0_5.index t 1 * 75 ≤ (i 1).val ∧ (i 1).val < win0_5.index t 1 * 75 + 75
    omega

/-- Window 5's array after the last point. -/
theorem final5 (c : Dev nD) : (dats m 0 c).arrAt 5 cfg0.N = rowsOf (rowHFlat (T75 m c)) (A2 m c) :=
  (dats m 0 c).arrAt_eq_of_cover 5 (rowsOf (rowHFlat (T75 m c)) (A2 m c)) (fun t _ => flushed5_eq m c t) cover5

end Cert.KernelIdeal.Hand

end
-- ==== Proof.KernelTail.lean ====
/-
  The kernel program's results.

  Before the region the raw argument is recast to 2097152 rows of 82, row 1048576 b + n being row (b, n), and
  the table of 75 is written from its words. After the region each of the four arrays is recast back: row
  1048576 b + n becomes (b, n), the nine covariance columns become 3 × 3 (column 3 a + c is entry (a, c)) and the
  75 harmonics columns 3 × 25 (column 25 a + d is entry (a, d)). Read through these recasts, the arrays the region
  leaves are the four results as functions of the raw argument; the table of 75 repeats a table of 25 three times.
-/
import proofs.«138605_j38001870635883_1_alg».proof.Proof.KernelBlocks
import Idealize.ShloMosaic.Lib.StableHlo.Run

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pay Cert.Gauss

variable (m : (ℓ : Loc nD τ sig) → Buf (Elt Ideal) ℓ) (ρ : Dev nD → PrngReg)

/-- The flat row of (b, n). -/
def flatRow (b : Fin 2) (n : Fin 1048576) : Fin 2097152 := ⟨b.val * 1048576 + n.val, by omega⟩

/-- The raw argument of core c. -/
abbrev X3 (c : Dev nD) : Vec Ideal S2x1048576x82 .f32 := m ((c.tc : Thread nD τ).loc main_arg2)

/-- The region finds the raw argument recast to rows. -/
theorem A2_eq (c : Dev nD) : A2 m c = shapeCast S2097152x82 (X3 m c) Facts₀.shapeCasts_S2x1048576x82_S2097152x82 := by
  show StableHlo.after hostOps0 (fun b => m (c, b)) (Proc.devRef .tc main_v0) = _
  after_results
  rfl

/-- Row 1048576 b + n of the recast array is row (b, n) of the argument. -/
theorem A2_at (c : Dev nD) (b : Fin 2) (n : Fin 1048576) (q : Fin 82) :
    A2 m c (ix2 (flatRow b n) q) = X3 m c (ix3 b n q) := by
  rw [A2_eq]
  refine shapeCast_apply _ _ _ _ ?_
  rw [Shape.rowMajor_val_three, Shape.rowMajor_val_two]
  rfl

theorem A2_row (c : Dev nD) (b : Fin 2) (n : Fin 1048576) :
    (fun q => A2 m c (ix2 (flatRow b n) q)) = rawRow (X3 m c) b n :=
  funext fun q => A2_at m c b n q

/-- The region finds the table at its words. -/
theorem T75_eq (c : Dev nD) (e : Fin 75) : T75 m c e = Ideal.ofBits .f32 (lit0 e) := by
  unfold T75
  have hV : (V m c main_cst : Vec Ideal S1x75 .f32) = ((fun i => FloatOps.ofBits (F := Ideal) .f32 (lit0 (S1x75.rowMajor i))) : Vec Ideal S1x75 .f32) := by
    show StableHlo.after hostOps0 (fun b => m (c, b)) (Proc.devRef .tc main_cst) = _
    after_results
    rfl
  rw [hV]
  show Ideal.ofBits .f32 (lit0 (S1x75.rowMajor (ix2 (0 : Fin 1) e))) = _
  refine congrArg (fun k => Ideal.ofBits .f32 (lit0 k)) (Fin.ext ?_)
  rw [Shape.rowMajor_val_two]
  show 0 * 75 + e.val = e.val
  omega

/-- The table of 25 the table of 75 repeats. -/
def mk25K : Fin 25 → EReal := fun d => Ideal.ofBits .f32 (lit0 ⟨d.val, by omega⟩)

theorem lit0_period : ∀ (a : Fin 3) (d : Fin 25), lit0 ⟨25 * a.val + d.val, by omega⟩ = lit0 ⟨d.val, by omega⟩ := by
  decide

/-- After the region's host lines, the scales' result is the region's scales array recast. -/
theorem tail3 (c : Dev nD) : Pipeline.afterTail₀ cfgs (dats m) 0 (V0 m) [hostOps1] c main_v3
    = shapeCast S2x1048576x3 (rowsOf rowS (A2 m c)) Facts₀.shapeCasts_S2097152x3_S2x1048576x3 := by
  unfold Pipeline.afterTail₀
  show StableHlo.after hostOps1 _ (Proc.devRef .tc main_v3) = _
  after_results
  exact congrArg (fun a => shapeCast S2x1048576x3 a Facts₀.shapeCasts_S2097152x3_S2x1048576x3)
    ((Pipeline.withArrays_arr spec0 launch0.win.arr_inj c _ _ 3).trans (final3 m c))

/-- The rotations' result is the region's quaternion array recast. -/
theorem tail4 (c : Dev nD) : Pipeline.afterTail₀ cfgs (dats m) 0 (V0 m) [hostOps1] c main_v4
    = shapeCast S2x1048576x4 (rowsOf rowU (A2 m c)) Facts₀.shapeCasts_S2097152x4_S2x1048576x4 := by
  unfold Pipeline.afterTail₀
  show StableHlo.after hostOps1 _ (Proc.devRef .tc main_v4) = _
  after_results
  exact congrArg (fun a => shapeCast S2x1048576x4 a Facts₀.shapeCasts_S2097152x4_S2x1048576x4)
    ((Pipeline.withArrays_arr spec0 launch0.win.arr_inj c _ _ 4).trans (final4 m c))

/-- The covariances' result is the region's nine-column array recast. -/
theorem tail2 (c : Dev nD) : Pipeline.afterTail₀ cfgs (dats m) 0 (V0 m) [hostOps1] c main_v2
    = shapeCast S2x1048576x3x3 (rowsOf rowCFlat (A2 m c)) Facts₀.shapeCasts_S2097152x9_S2x1048576x3x3 := by
  unfold Pipeline.afterTail₀
  show StableHlo.after hostOps1 _ (Proc.devRef .tc main_v2) = _
  after_results
  exact congrArg (fun a => shapeCast S2x1048576x3x3 a Facts₀.shapeCasts_S2097152x9_S2x1048576x3x3)
    ((Pipeline.withArrays_arr spec0 launch0.win.arr_inj c _ _ 2).trans (final2 m c))

/-- The harmonics' result is the region's 75-column array recast. -/
theorem tail5 (c : Dev nD) : Pipeline.afterTail₀ cfgs (dats m) 0 (V0 m) [hostOps1] c main_v5
    = shapeCast S2x1048576x3x25 (rowsOf (rowHFlat (T75 m c)) (A2 m c)) Facts₀.shapeCasts_S2097152x75_S2x1048576x3x25 := by
  unfold Pipeline.afterTail₀
  show StableHlo.after hostOps1 _ (Proc.devRef .tc main_v5) = _
  after_results
  exact congrArg (fun a => shapeCast S2x1048576x3x25 a Facts₀.shapeCasts_S2097152x75_S2x1048576x3x25)
    ((Pipeline.withArrays_arr spec0 launch0.win.arr_inj c _ _ 5).trans (final5 m c))

/-- The scales' result, index by index. -/
theorem res3_eq (c : Dev nD) :
    shapeCast S2x1048576x3 (rowsOf rowS (A2 m c)) Facts₀.shapeCasts_S2097152x3_S2x1048576x3 = gScales (X3 m c) := by
  funext j
  obtain ⟨b, n, a, rfl⟩ : ∃ (b : Fin 2) (n : Fin 1048576) (a : Fin 3), j = ix3 b n a := ⟨j 0, j 1, j 2, eq_ix3 j⟩
  refine (shapeCast_apply _ _ (ix3 b n a) (ix2 (flatRow b n) a) ?_).trans ?_
  · rw [Shape.rowMajor_val_two, Shape.rowMajor_val_three]; rfl
  · show rowS (fun q => A2 m c (ix2 (flatRow b n) q)) a = rowS (rawRow (X3 m c) b n) a
    rw [A2_row]

/-- The rotations' result, index by index. -/
theorem res4_eq (c : Dev nD) :
    shapeCast S2x1048576x4 (rowsOf rowU (A2 m c)) Facts₀.shapeCasts_S2097152x4_S2x1048576x4 = gQuat (X3 m c) := by
  funext j
  obtain ⟨b, n, a, rfl⟩ : ∃ (b : Fin 2) (n : Fin 1048576) (a : Fin 4), j = ix3 b n a := ⟨j 0, j 1, j 2, eq_ix3 j⟩
  refine (shapeCast_apply _ _ (ix3 b n a) (ix2 (flatRow b n) a) ?_).trans ?_
  · rw [Shape.rowMajor_val_two, Shape.rowMajor_val_three]; rfl
  · show rowU (fun q => A2 m c (ix2 (flatRow b n) q)) a = rowU (rawRow (X3 m c) b n) a
    rw [A2_row]

/-- The covariances' result, index by index: column 3 a + e of row 1048576 b + n is entry (b, n, a, e). -/
theorem res2_eq (c : Dev nD) :
    shapeCast S2x1048576x3x3 (rowsOf rowCFlat (A2 m c)) Facts₀.shapeCasts_S2097152x9_S2x1048576x3x3 = gCov (X3 m c) := by
  funext j
  obtain ⟨b, n, a, e, rfl⟩ : ∃ (b : Fin 2) (n : Fin 1048576) (a : Fin 3) (e : Fin 3), j = ix4 b n a e :=
    ⟨j 0, j 1, j 2, j 3, eq_ix4 j⟩
  refine (shapeCast_apply _ _ (ix4 b n a e) (ix2 (flatRow b n) (⟨3 * a.val + e.val, by omega⟩ : Fin 9)) ?_).trans ?_
  · rw [Shape.rowMajor_val_two, Shape.rowMajor_val_four]
    show (b.val * 1048576 + n.val) * 9 + (3 * a.val + e.val) = ((b.val * 1048576 + n.val) * 3 + a.val) * 3 + e.val
    omega
  · show rowCFlat (fun q => A2 m c (ix2 (flatRow b n) q)) ⟨3 * a.val + e.val, _⟩ = rowC (rawRow (X3 m c) b n) a e
    rw [A2_row, rowCFlat_eq]

/-- The harmonics' result, index by index: column 25 a + d of row 1048576 b + n is entry (b, n, a, d). -/
theorem res5_eq (c : Dev nD) :
    shapeCast S2x1048576x3x25 (rowsOf (rowHFlat (T75 m c)) (A2 m c)) Facts₀.shapeCasts_S2097152x75_S2x1048576x3x25
      = gSh mk25K (X3 m c) := by
  funext j
  obtain ⟨b, n, a, d, rfl⟩ : ∃ (b : Fin 2) (n : Fin 1048576) (a : Fin 3) (d : Fin 25), j = ix4 b n a d :=
    ⟨j 0, j 1, j 2, j 3, eq_ix4 j⟩
  refine (shapeCast_apply _ _ (ix4 b n a d) (ix2 (flatRow b n) (⟨25 * a.val + d.val, by omega⟩ : Fin 75)) ?_).trans ?_
  · rw [Shape.rowMajor_val_two, Shape.rowMajor_val_four]
    show (b.val * 1048576 + n.val) * 75 + (25 * a.val + d.val) = ((b.val * 1048576 + n.val) * 3 + a.val) * 25 + d.val
    omega
  · show rowHFlat (T75 m c) (fun q => A2 m c (ix2 (flatRow b n) q)) ⟨25 * a.val + d.val, _⟩ = rowH mk25K (rawRow (X3 m c) b n) a d
    rw [A2_row]
    unfold rowHFlat rowH mk25K
    rw [T75_eq, lit0_period a d]
    exact congrArg (fun k => rawRow (X3 m c) b n k * _) (Fin.ext (by show 7 + (25 * a.val + d.val) = 7 + 25 * a.val + d.val; omega))

/-- The kernel program's run with every result named: the four computed results as functions of the raw argument,
    the two passed-through arguments and the raw argument unchanged. -/
theorem run : θ_run defs (onTc (τ := τ) (main (F := Ideal))) ⟨m, fun _ => 0, ρ⟩ fun r => ∀ c : Dev nD,
      r.2.mem ((c.tc : Thread nD τ).loc main_v2) = gCov (X3 m c)
      ∧ r.2.mem ((c.tc : Thread nD τ).loc main_v3) = gScales (X3 m c)
      ∧ r.2.mem ((c.tc : Thread nD τ).loc main_v4) = gQuat (X3 m c)
      ∧ r.2.mem ((c.tc : Thread nD τ).loc main_v5) = gSh mk25K (X3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans ((tail2 m c).trans (res2_eq m c)),
     ((h c).2 main_v3 (Pipeline.mem_restRefs_of main_v3 (by decide) (by decide))).trans ((tail3 m c).trans (res3_eq m c)),
     ((h c).2 main_v4 (Pipeline.mem_restRefs_of main_v4 (by decide) (by decide))).trans ((tail4 m c).trans (res4_eq m c)),
     ((h c).2 main_v5 (Pipeline.mem_restRefs_of main_v5 (by decide) (by decide))).trans ((tail5 m c).trans (res5_eq m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.RefOps.lean ====
/- The reference's @main as one list: its 123 host operations in program order, the called norm function's
   five operations standing in the call's place. A table only; the run over it is in RefRun.lean. -/
import proofs.«138605_j38001870635883_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- @main's operations, in order. -/
abbrev ops : List (HloOp τ sig (Elt F)) :=
  [ nullary main_cst (fun i => FloatOps.ofBits .f32 (lit0 (S25.rowMajor i))),
    unary main_arg2 main_v0 ((extractStridedSlice S2x1048576x3 ![0, 0, 0] · slices_S2x1048576x82_S2x1048576x3_0_0_0) : (⟨S2x1048576x82, .f32⟩ : BufTy).Contents (Elt F) → (⟨S2x1048576x3, .f32⟩ : BufTy).Contents (Elt F)),
    unary main_arg2 main_v1 ((extractStridedSlice S2x1048576x4 ![0, 0, 3] · slices_S2x1048576x82_S2x1048576x4_0_0_3) : (⟨S2x1048576x82, .f32⟩ : BufTy).Contents (Elt F) → (⟨S2x1048576x4, .f32⟩ : BufTy).Contents (Elt F)),
    unary main_arg2 main_v2 ((extractStridedSlice S2x1048576x75 ![0, 0, 7] · slices_S2x1048576x82_S2x1048576x75_0_0_7) : (⟨S2x1048576x82, .f32⟩ : BufTy).Contents (Elt F) → (⟨S2x1048576x75, .f32⟩ : BufTy).Contents (Elt F)),
    unary main_v0 main_v3 (Host.negf : (⟨S2x1048576x3, .f32⟩ : BufTy).Contents (Elt F) → (⟨S2x1048576x3, .f32⟩ : BufTy).Contents (Elt F)),
    unary main_v3 main_v4 (Host.exp : (⟨S2x1048576x3, .f32⟩ : BufTy).Contents (Elt F) → (⟨S2x1048576x3, .f32⟩ : BufTy).Contents (Elt F)),
    nullary main_cst_0 (constant S_ .f32 0x3F800000#32),
    unary main_cst_0 main_v5 (broadcastInDim S2x1048576x3 ![] bcast_S_S2x1048576x3 : (⟨S_, .f32⟩ : BufTy).Contents (Elt F) → (⟨S2x1048576x3, .f32⟩ : BufTy).Contents (Elt F)),
    binary main_v5 main_v4 main_v6 (addf : (⟨S2x1048576x3, .f32⟩ : BufTy).Contents (Elt F) → (⟨S2x1048576x3, .f32⟩ : BufTy).Contents (Elt F) → (⟨S2x1048576x3, .f32⟩ : BufTy).Contents (Elt F)),
    nullary main_cst_1 (constant S_ .f32 0x3F800000#32),
    unary main_cst_1 main_v7 (broadcastInDim S2x1048576x3 ![] bcast_S_S2x1048576x3 : (⟨S_, .f32⟩ : BufTy).Contents (Elt F) → (⟨S2x1048576x3, .f32⟩ : BufTy).Contents (Elt F)),
    binary main_v7 main_v6 main_v8 (Host.divf : (⟨S2x1048576x3, .f32⟩ : BufTy).Contents (Elt F) → (⟨S2x1048576x3, .f32⟩ : BufTy).Contents (Elt F) → (⟨S2x1048576x3, .f32⟩ : BufTy).Contents (Elt F)),
    nullary main_cst_2 (constant S_ .f32 0x41680000#32),
    unary main_cst_2 main_v9 (broadcastInDim S2x1048576x3 ![] bcast_S_S2x1048576x3 : (⟨S_, .f32⟩ : BufTy).Contents (Elt F) → (⟨S2x1048576x3, .f32⟩ : BufTy).Contents (Elt F)),
    binary main_v9 main_v8 main_v10 (mulf : (⟨S2x1048576x3, .f32⟩ : BufTy).Contents (Elt F) → (⟨S2x1048576x3, .f32⟩ : BufTy).Contents (Elt F) → (⟨S2x1048576x3, .f32⟩ : BufTy).Contents (Elt F)),
    nullary main_cst_3 (constant S_ .f32 0x3F000000#32),
    unary main_cst_3 main_v11 (broadcastInDim S2x1048576x3 ![] bcast_S_S2x1048576x3 : (⟨S_, .f32⟩ : BufTy).Contents (Elt F) → (⟨S2x1048576x3, .f32⟩ : BufTy).Contents (Elt F)),
    binary main_v11 main_v10 main_v12 (addf : (⟨S2x1048576x3, .f32⟩ : BufTy).Contents (Elt F) → (⟨S2x1048576x3, .f32⟩ : BufTy).Contents (Elt F) → (⟨S2x1048576x3, .f32⟩ : BufTy).Contents (Elt F)),
    TRef.binary (.of main_v1) (.of main_v1) main_call0.v0 mulf,
    TRef.nullary main_call0.cst (constant S_ .f32 0x00000000#32),
    TRef.binary main_call0.v0 main_call0.cst main_call0.v1 (fun x v => Host.reduceAdd x v reducesTo_S2x1048576x4_S2x1048576_d2 h_S_),
    TRef.unary main_call0.v1 main_call0.v2 (broadcastInDim S2x1048576x1 ![0, 1] bcast_S2x1048576_S2x1048576x1_0_1),
    TRef.unary main_call0.v2 main_call0.v3 Host.sqrt,
    nullary main_cst_4 (constant S_ .f32 0x322BCC77#32),
    unary main_cst_4 main_v14 (broadcastInDim S2x1048576x1 ![] bcast_S_S2x1048576x1 : (⟨S_, .f32⟩ : BufTy).Contents (Elt F) → (⟨S2x1048576x1, .f32⟩ : BufTy).Contents (Elt F)),
    binary main_v13 main_v14 main_v15 (addf : (⟨S2x1048576x1, .f32⟩ : BufTy).Contents (Elt F) → (⟨S2x1048576x1, .f32⟩ : BufTy).Contents (Elt F) → (⟨S2x1048576x1, .f32⟩ : BufTy).Contents (Elt F)),
    unary main_v15 main_v16 (broadcastInDim S2x1048576x4 ![0, 1, 2] bcast_S2x1048576x1_S2x1048576x4_0_1_2 : (⟨S2x1048576x1, .f32⟩ : BufTy).Contents (Elt F) → (⟨S2x1048576x4, .f32⟩ : BufTy).Contents (Elt F)),
    binary main_v1 main_v16 main_v17 (Host.divf : (⟨S2x1048576x4, .f32⟩ : BufTy).Contents (Elt F) → (⟨S2x1048576x4, .f32⟩ : BufTy).Contents (Elt F) → (⟨S2x1048576x4, .f32⟩ : BufTy).Contents (Elt F)),
    reshape main_v2 main_v18 rfl shapeCasts_S2x1048576x75_S2x1048576x3x25,
    unary main_cst main_v19 (broadcastInDim S1x1x1x25 ![3] bcast_S25_S1x1x1x25_3 : (⟨S25, .f32⟩ : BufTy).Contents (Elt F) → (⟨S1x1x1x25, .f32⟩ : BufTy).Contents (Elt F)),
    unary main_v19 main_v20 (broadcastInDim S2x1048576x3x25 ![0, 1, 2, 3] bcast_S1x1x1x25_S2x1048576x3x25_0_1_2_3 : (⟨S1x1x1x25, .f32⟩ : BufTy).Contents (Elt F) → (⟨S2x1048576x3x25, .f32⟩ : BufTy).Contents (Elt F)),
    binary main_v18 main_v20 main_v21 (mulf : (⟨S2x1048576x3x25, .f32⟩ : BufTy).Contents (Elt F) → (⟨S2x1048576x3x25, .f32⟩ : BufTy).Contents (Elt F) → (⟨S2x1048576x3x25, .f32⟩ : BufTy).Contents (Elt F)),
    unary main_v17 main_v22 ((extractStridedSlice S2x1048576x1 ![0, 0, 0] · slices_S2x1048576x4_S2x1048576x1_0_0_0) : (⟨S2x1048576x4, .f32⟩ : BufTy).Contents (Elt F) → (⟨S2x1048576x1, .f32⟩ : BufTy).Contents (Elt F)),
    reshape main_v22 main_v23 rfl shapeCasts_S2x1048576x1_S2x1048576,
    unary main_v17 main_v24 ((extractStridedSlice S2x1048576x1 ![0, 0, 1] · slices_S2x1048576x4_S2x1048576x1_0_0_1) : (⟨S2x1048576x4, .f32⟩ : BufTy).Contents (Elt F) → (⟨S2x1048576x1, .f32⟩ : BufTy).Contents (Elt F)),
    reshape main_v24 main_v25 rfl shapeCasts_S2x1048576x1_S2x1048576,
    unary main_v17 main_v26 ((extractStridedSlice S2x1048576x1 ![0, 0, 2] · slices_S2x1048576x4_S2x1048576x1_0_0_2) : (⟨S2x1048576x4, .f32⟩ : BufTy).Contents (Elt F) → (⟨S2x1048576x1, .f32⟩ : BufTy).Contents (Elt F)),
    reshape main_v26 main_v27 rfl shapeCasts_S2x1048576x1_S2x1048576,
    unary main_v17 main_v28 ((extractStridedSlice S2x1048576x1 ![0, 0, 3] · slices_S2x1048576x4_S2x1048576x1_0_0_3) : (⟨S2x1048576x4, .f32⟩ : BufTy).Contents (Elt F) → (⟨S2x1048576x1, .f32⟩ : BufTy).Contents (Elt F)),
    reshape main_v28 main_v29 rfl shapeCasts_S2x1048576x1_S2x1048576,
    binary main_v27 main_v27 main_v30 (mulf : (⟨S2x1048576, .f32⟩ : BufTy).Contents (Elt F) → (⟨S2x1048576, .f32⟩ : BufTy).Contents (Elt F) → (⟨S2x1048576, .f32⟩ : BufTy).Contents (Elt F)),
    binary main_v29 main_v29 main_v31 (mulf : (⟨S2x1048576, .f32⟩ : BufTy).Contents (Elt F) → (⟨S2x1048576, .f32⟩ : BufTy).Contents (Elt F) → (⟨S2x1048576, .f32⟩ : BufTy).Contents (Elt F)),
    binary main_v30 main_v31 main_v32 (addf : (⟨S2x1048576, .f32⟩ : BufTy).Contents (Elt F) → (⟨S2x1048576, .f32⟩ : BufTy).Contents (Elt F) → (⟨S2x1048576, .f32⟩ : BufTy).Contents (Elt F)),
    nullary main_cst_5 (constant S_ .f32 0x40000000#32),
    unary main_cst_5 main_v33 (broadcastInDim S2x1048576 ![] bcast_S_S2x1048576 : (⟨S_, .f32⟩ : BufTy).Contents (Elt F) → (⟨S2x1048576, .f32⟩ : BufTy).Contents (Elt F)),
    binary main_v33 main_v32 main_v34 (mulf : (⟨S2x1048576, .f32⟩ : BufTy).Contents (Elt F) → (⟨S2x1048576, .f32⟩ : BufTy).Contents (Elt F) → (⟨S2x1048576, .f32⟩ : BufTy).Contents (Elt F)),
    nullary main_cst_6 (constant S_ .f32 0x3F800000#32),
    unary main_cst_6 main_v35 (broadcastInDim S2x1048576 ![] bcast_S_S2x1048576 : (⟨S_, .f32⟩ : BufTy).Contents (Elt F) → (⟨S2x1048576, .f32⟩ : BufTy).Contents (Elt F)),
    binary main_v35 main_v34 main_v36 (subf : (⟨S2x1048576, .f32⟩ : BufTy).Contents (Elt F) → (⟨S2x1048576, .f32⟩ : BufTy).Contents (Elt F) → (⟨S2x1048576, .f32⟩ : BufTy).Contents (Elt F)),
    binary main_v25 main_v27 main_v37 (mulf : (⟨S2x1048576, .f32⟩ : BufTy).Contents (Elt F) → (⟨S2x1048576, .f32⟩ : BufTy).Contents (Elt F) → (⟨S2x1048576, .f32⟩ : BufTy).Contents (Elt F)),
    binary main_v29 main_v23 main_v38 (mulf : (⟨S2x1048576, .f32⟩ : BufTy).Contents (Elt F) → (⟨S2x1048576, .f32⟩ : BufTy).Contents (Elt F) → (⟨S2x1048576, .f32⟩ : BufTy).Contents (Elt F)),
    binary main_v37 main_v38 main_v39 (subf : (⟨S2x1048576, .f32⟩ : BufTy).Contents (Elt F) → (⟨S2x1048576, .f32⟩ : BufTy).Contents (Elt F) → (⟨S2x1048576, .f32⟩ : BufTy).Contents (Elt F)),
    nullary main_cst_7 (constant S_ .f32 0x40000000#32),
    unary main_cst_7 main_v40 (broadcastInDim S2x1048576 ![] bcast_S_S2x1048576 : (⟨S_, .f32⟩ : BufTy).Contents (Elt F) → (⟨S2x1048576, .f32⟩ : BufTy).Contents (Elt F)),
    binary main_v40 main_v39 main_v41 (mulf : (⟨S2x1048576, .f32⟩ : BufTy).Contents (Elt F) → (⟨S2x1048576, .f32⟩ : BufTy).Contents (Elt F) → (⟨S2x1048576, .f32⟩ : BufTy).Contents (Elt F)),
    binary main_v25 main_v29 main_v42 (mulf : (⟨S2x1048576, .f32⟩ : BufTy).Contents (Elt F) → (⟨S2x1048576, .f32⟩ : BufTy).Contents (Elt F) → (⟨S2x1048576, .f32⟩ : BufTy).Contents (Elt F)),
    binary main_v27 main_v23 main_v43 (mulf : (⟨S2x1048576, .f32⟩ : BufTy).Contents (Elt F) → (⟨S2x1048576, .f32⟩ : BufTy).Contents (Elt F) → (⟨S2x1048576, .f32⟩ : BufTy).Contents (Elt F)),
    binary main_v42 main_v43 main_v44 (addf : (⟨S2x1048576, .f32⟩ : BufTy).Contents (Elt F) → (⟨S2x1048576, .f32⟩ : BufTy).Contents (Elt F) → (⟨S2x1048576, .f32⟩ : BufTy).Contents (Elt F)),
    nullary main_cst_8 (constant S_ .f32 0x40000000#32),
    unary main_cst_8 main_v45 (broadcastInDim S2x1048576 ![] bcast_S_S2x1048576 : (⟨S_, .f32⟩ : BufTy).Contents (Elt F) → (⟨S2x1048576, .f32⟩ : BufTy).Contents (Elt F)),
    binary main_v45 main_v44 main_v46 (mulf : (⟨S2x1048576, .f32⟩ : BufTy).Contents (Elt F) → (⟨S2x1048576, .f32⟩ : BufTy).Contents (Elt F) → (⟨S2x1048576, .f32⟩ : BufTy).Contents (Elt F)),
    unary main_v36 main_v47 (broadcastInDim S2x1048576x1 ![0, 1] bcast_S2x1048576_S2x1048576x1_0_1 : (⟨S2x1048576, .f32⟩ : BufTy).Contents (Elt F) → (⟨S2x1048576x1, .f32⟩ : BufTy).Contents (Elt F)),
    unary main_v41 main_v48 (broadcastInDim S2x1048576x1 ![0, 1] bcast_S2x1048576_S2x1048576x1_0_1 : (⟨S2x1048576, .f32⟩ : BufTy).Contents (Elt F) → (⟨S2x1048576x1, .f32⟩ : BufTy).Contents (Elt F)),
    unary main_v46 main_v49 (broadcastInDim S2x1048576x1 ![0, 1] bcast_S2x1048576_S2x1048576x1_0_1 : (⟨S2x1048576, .f32⟩ : BufTy).Contents (Elt F) → (⟨S2x1048576x1, .f32⟩ : BufTy).Contents (Elt F)),
    nary ![main_v47, main_v48, main_v49] main_v50 (fun u => concatenate S2x1048576x3 2 [⟨S2x1048576x1, u 0⟩, ⟨S2x1048576x1, u 1⟩, ⟨S2x1048576x1, u 2⟩] concatenates_S2x1048576x1_S2x1048576x1_S2x1048576x1_S2x1048576x3_d2),
    binary main_v25 main_v27 main_v51 (mulf : (⟨S2x1048576, .f32⟩ : BufTy).Contents (Elt F) → (⟨S2x1048576, .f32⟩ : BufTy).Contents (Elt F) → (⟨S2x1048576, .f32⟩ : BufTy).Contents (Elt F)),
    binary main_v29 main_v23 main_v52 (mulf : (⟨S2x1048576, .f32⟩ : BufTy).Contents (Elt F) → (⟨S2x1048576, .f32⟩ : BufTy).Contents (Elt F) → (⟨S2x1048576, .f32⟩ : BufTy).Contents (Elt F)),
    binary main_v51 main_v52 main_v53 (addf : (⟨S2x1048576, .f32⟩ : BufTy).Contents (Elt F) → (⟨S2x1048576, .f32⟩ : BufTy).Contents (Elt F) → (⟨S2x1048576, .f32⟩ : BufTy).Contents (Elt F)),
    nullary main_cst_9 (constant S_ .f32 0x40000000#32),
    unary main_cst_9 main_v54 (broadcastInDim S2x1048576 ![] bcast_S_S2x1048576 : (⟨S_, .f32⟩ : BufTy).Contents (Elt F) → (⟨S2x1048576, .f32⟩ : BufTy).Contents (Elt F)),
    binary main_v54 main_v53 main_v55 (mulf : (⟨S2x1048576, .f32⟩ : BufTy).Contents (Elt F) → (⟨S2x1048576, .f32⟩ : BufTy).Contents (Elt F) → (⟨S2x1048576, .f32⟩ : BufTy).Contents (Elt F)),
    binary main_v25 main_v25 main_v56 (mulf : (⟨S2x1048576, .f32⟩ : BufTy).Contents (Elt F) → (⟨S2x1048576, .f32⟩ : BufTy).Contents (Elt F) → (⟨S2x1048576, .f32⟩ : BufTy).Contents (Elt F)),
    binary main_v29 main_v29 main_v57 (mulf : (⟨S2x1048576, .f32⟩ : BufTy).Contents (Elt F) → (⟨S2x1048576, .f32⟩ : BufTy).Contents (Elt F) → (⟨S2x1048576, .f32⟩ : BufTy).Contents (Elt F)),
    binary main_v56 main_v57 main_v58 (addf : (⟨S2x1048576, .f32⟩ : BufTy).Contents (Elt F) → (⟨S2x1048576, .f32⟩ : BufTy).Contents (Elt F) → (⟨S2x1048576, .f32⟩ : BufTy).Contents (Elt F)),
    nullary main_cst_10 (constant S_ .f32 0x40000000#32),
    unary main_cst_10 main_v59 (broadcastInDim S2x1048576 ![] bcast_S_S2x1048576 : (⟨S_, .f32⟩ : BufTy).Contents (Elt F) → (⟨S2x1048576, .f32⟩ : BufTy).Contents (Elt F)),
    binary main_v59 main_v58 main_v60 (mulf : (⟨S2x1048576, .f32⟩ : BufTy).Contents (Elt F) → (⟨S2x1048576, .f32⟩ : BufTy).Contents (Elt F) → (⟨S2x1048576, .f32⟩ : BufTy).Contents (Elt F)),
    nullary main_cst_11 (constant S_ .f32 0x3F800000#32),
    unary main_cst_11 main_v61 (broadcastInDim S2x1048576 ![] bcast_S_S2x1048576 : (⟨S_, .f32⟩ : BufTy).Contents (Elt F) → (⟨S2x1048576, .f32⟩ : BufTy).Contents (Elt F)),
    binary main_v61 main_v60 main_v62 (subf : (⟨S2x1048576, .f32⟩ : BufTy).Contents (Elt F) → (⟨S2x1048576, .f32⟩ : BufTy).Contents (Elt F) → (⟨S2x1048576, .f32⟩ : BufTy).Contents (Elt F)),
    binary main_v27 main_v29 main_v63 (mulf : (⟨S2x1048576, .f32⟩ : BufTy).Contents (Elt F) → (⟨S2x1048576, .f32⟩ : BufTy).Contents (Elt F) → (⟨S2x1048576, .f32⟩ : BufTy).Contents (Elt F)),
    binary main_v25 main_v23 main_v64 (mulf : (⟨S2x1048576, .f32⟩ : BufTy).Contents (Elt F) → (⟨S2x1048576, .f32⟩ : BufTy).Contents (Elt F) → (⟨S2x1048576, .f32⟩ : BufTy).Contents (Elt F)),
    binary main_v63 main_v64 main_v65 (subf : (⟨S2x1048576, .f32⟩ : BufTy).Contents (Elt F) → (⟨S2x1048576, .f32⟩ : BufTy).Contents (Elt F) → (⟨S2x1048576, .f32⟩ : BufTy).Contents (Elt F)),
    nullary main_cst_12 (constant S_ .f32 0x40000000#32),
    unary main_cst_12 main_v66 (broadcastInDim S2x1048576 ![] bcast_S_S2x1048576 : (⟨S_, .f32⟩ : BufTy).Contents (Elt F) → (⟨S2x1048576, .f32⟩ : BufTy).Contents (Elt F)),
    binary main_v66 main_v65 main_v67 (mulf : (⟨S2x1048576, .f32⟩ : BufTy).Contents (Elt F) → (⟨S2x1048576, .f32⟩ : BufTy).Contents (Elt F) → (⟨S2x1048576, .f32⟩ : BufTy).Contents (Elt F)),
    unary main_v55 main_v68 (broadcastInDim S2x1048576x1 ![0, 1] bcast_S2x1048576_S2x1048576x1_0_1 : (⟨S2x1048576, .f32⟩ : BufTy).Contents (Elt F) → (⟨S2x1048576x1, .f32⟩ : BufTy).Contents (Elt F)),
    unary main_v62 main_v69 (broadcastInDim S2x1048576x1 ![0, 1] bcast_S2x1048576_S2x1048576x1_0_1 : (⟨S2x1048576, .f32⟩ : BufTy).Contents (Elt F) → (⟨S2x1048576x1, .f32⟩ : BufTy).Contents (Elt F)),
    unary main_v67 main_v70 (broadcastInDim S2x1048576x1 ![0, 1] bcast_S2x1048576_S2x1048576x1_0_1 : (⟨S2x1048576, .f32⟩ : BufTy).Contents (Elt F) → (⟨S2x1048576x1, .f32⟩ : BufTy).Contents (Elt F)),
    nary ![main_v68, main_v69, main_v70] main_v71 (fun u => concatenate S2x1048576x3 2 [⟨S2x1048576x1, u 0⟩, ⟨S2x1048576x1, u 1⟩, ⟨S2x1048576x1, u 2⟩] concatenates_S2x1048576x1_S2x1048576x1_S2x1048576x1_S2x1048576x3_d2),
    binary main_v25 main_v29 main_v72 (mulf : (⟨S2x1048576, .f32⟩ : BufTy).Contents (Elt F) → (⟨S2x1048576, .f32⟩ : BufTy).Contents (Elt F) → (⟨S2x1048576, .f32⟩ : BufTy).Contents (Elt F)),
    binary main_v27 main_v23 main_v73 (mulf : (⟨S2x1048576, .f32⟩ : BufTy).Contents (Elt F) → (⟨S2x1048576, .f32⟩ : BufTy).Contents (Elt F) → (⟨S2x1048576, .f32⟩ : BufTy).Contents (Elt F)),
    binary main_v72 main_v73 main_v74 (subf : (⟨S2x1048576, .f32⟩ : BufTy).Contents (Elt F) → (⟨S2x1048576, .f32⟩ : BufTy).Contents (Elt F) → (⟨S2x1048576, .f32⟩ : BufTy).Contents (Elt F)),
    nullary main_cst_13 (constant S_ .f32 0x40000000#32),
    unary main_cst_13 main_v75 (broadcastInDim S2x1048576 ![] bcast_S_S2x1048576 : (⟨S_, .f32⟩ : BufTy).Contents (Elt F) → (⟨S2x1048576, .f32⟩ : BufTy).Contents (Elt F)),
    binary main_v75 main_v74 main_v76 (mulf : (⟨S2x1048576, .f32⟩ : BufTy).Contents (Elt F) → (⟨S2x1048576, .f32⟩ : BufTy).Contents (Elt F) → (⟨S2x1048576, .f32⟩ : BufTy).Contents (Elt F)),
    binary main_v27 main_v29 main_v77 (mulf : (⟨S2x1048576, .f32⟩ : BufTy).Contents (Elt F) → (⟨S2x1048576, .f32⟩ : BufTy).Contents (Elt F) → (⟨S2x1048576, .f32⟩ : BufTy).Contents (Elt F)),
    binary main_v25 main_v23 main_v78 (mulf : (⟨S2x1048576, .f32⟩ : BufTy).Contents (Elt F) → (⟨S2x1048576, .f32⟩ : BufTy).Contents (Elt F) → (⟨S2x1048576, .f32⟩ : BufTy).Contents (Elt F)),
    binary main_v77 main_v78 main_v79 (addf : (⟨S2x1048576, .f32⟩ : BufTy).Contents (Elt F) → (⟨S2x1048576, .f32⟩ : BufTy).Contents (Elt F) → (⟨S2x1048576, .f32⟩ : BufTy).Contents (Elt F)),
    nullary main_cst_14 (constant S_ .f32 0x40000000#32),
    unary main_cst_14 main_v80 (broadcastInDim S2x1048576 ![] bcast_S_S2x1048576 : (⟨S_, .f32⟩ : BufTy).Contents (Elt F) → (⟨S2x1048576, .f32⟩ : BufTy).Contents (Elt F)),
    binary main_v80 main_v79 main_v81 (mulf : (⟨S2x1048576, .f32⟩ : BufTy).Contents (Elt F) → (⟨S2x1048576, .f32⟩ : BufTy).Contents (Elt F) → (⟨S2x1048576, .f32⟩ : BufTy).Contents (Elt F)),
    binary main_v25 main_v25 main_v82 (mulf : (⟨S2x1048576, .f32⟩ : BufTy).Contents (Elt F) → (⟨S2x1048576, .f32⟩ : BufTy).Contents (Elt F) → (⟨S2x1048576, .f32⟩ : BufTy).Contents (Elt F)),
    binary main_v27 main_v27 main_v83 (mulf : (⟨S2x1048576, .f32⟩ : BufTy).Contents (Elt F) → (⟨S2x1048576, .f32⟩ : BufTy).Contents (Elt F) → (⟨S2x1048576, .f32⟩ : BufTy).Contents (Elt F)),
    binary main_v82 main_v83 main_v84 (addf : (⟨S2x1048576, .f32⟩ : BufTy).Contents (Elt F) → (⟨S2x1048576, .f32⟩ : BufTy).Contents (Elt F) → (⟨S2x1048576, .f32⟩ : BufTy).Contents (Elt F)),
    nullary main_cst_15 (constant S_ .f32 0x40000000#32),
    unary main_cst_15 main_v85 (broadcastInDim S2x1048576 ![] bcast_S_S2x1048576 : (⟨S_, .f32⟩ : BufTy).Contents (Elt F) → (⟨S2x1048576, .f32⟩ : BufTy).Contents (Elt F)),
    binary main_v85 main_v84 main_v86 (mulf : (⟨S2x1048576, .f32⟩ : BufTy).Contents (Elt F) → (⟨S2x1048576, .f32⟩ : BufTy).Contents (Elt F) → (⟨S2x1048576, .f32⟩ : BufTy).Contents (Elt F)),
    nullary main_cst_16 (constant S_ .f32 0x3F800000#32),
    unary main_cst_16 main_v87 (broadcastInDim S2x1048576 ![] bcast_S_S2x1048576 : (⟨S_, .f32⟩ : BufTy).Contents (Elt F) → (⟨S2x1048576, .f32⟩ : BufTy).Contents (Elt F)),
    binary main_v87 main_v86 main_v88 (subf : (⟨S2x1048576, .f32⟩ : BufTy).Contents (Elt F) → (⟨S2x1048576, .f32⟩ : BufTy).Contents (Elt F) → (⟨S2x1048576, .f32⟩ : BufTy).Contents (Elt F)),
    unary main_v76 main_v89 (broadcastInDim S2x1048576x1 ![0, 1] bcast_S2x1048576_S2x1048576x1_0_1 : (⟨S2x1048576, .f32⟩ : BufTy).Contents (Elt F) → (⟨S2x1048576x1, .f32⟩ : BufTy).Contents (Elt F)),
    unary main_v81 main_v90 (broadcastInDim S2x1048576x1 ![0, 1] bcast_S2x1048576_S2x1048576x1_0_1 : (⟨S2x1048576, .f32⟩ : BufTy).Contents (Elt F) → (⟨S2x1048576x1, .f32⟩ : BufTy).Contents (Elt F)),
    unary main_v88 main_v91 (broadcastInDim S2x1048576x1 ![0, 1] bcast_S2x1048576_S2x1048576x1_0_1 : (⟨S2x1048576, .f32⟩ : BufTy).Contents (Elt F) → (⟨S2x1048576x1, .f32⟩ : BufTy).Contents (Elt F)),
    nary ![main_v89, main_v90, main_v91] main_v92 (fun u => concatenate S2x1048576x3 2 [⟨S2x1048576x1, u 0⟩, ⟨S2x1048576x1, u 1⟩, ⟨S2x1048576x1, u 2⟩] concatenates_S2x1048576x1_S2x1048576x1_S2x1048576x1_S2x1048576x3_d2),
    unary main_v50 main_v93 (broadcastInDim S2x1048576x1x3 ![0, 1, 3] bcast_S2x1048576x3_S2x1048576x1x3_0_1_3 : (⟨S2x1048576x3, .f32⟩ : BufTy).Contents (Elt F) → (⟨S2x1048576x1x3, .f32⟩ : BufTy).Contents (Elt F)),
    unary main_v71 main_v94 (broadcastInDim S2x1048576x1x3 ![0, 1, 3] bcast_S2x1048576x3_S2x1048576x1x3_0_1_3 : (⟨S2x1048576x3, .f32⟩ : BufTy).Contents (Elt F) → (⟨S2x1048576x1x3, .f32⟩ : BufTy).Contents (Elt F)),
    unary main_v92 main_v95 (broadcastInDim S2x1048576x1x3 ![0, 1, 3] bcast_S2x1048576x3_S2x1048576x1x3_0_1_3 : (⟨S2x1048576x3, .f32⟩ : BufTy).Contents (Elt F) → (⟨S2x1048576x1x3, .f32⟩ : BufTy).Contents (Elt F)),
    nary ![main_v93, main_v94, main_v95] main_v96 (fun u => concatenate S2x1048576x3x3 2 [⟨S2x1048576x1x3, u 0⟩, ⟨S2x1048576x1x3, u 1⟩, ⟨S2x1048576x1x3, u 2⟩] concatenates_S2x1048576x1x3_S2x1048576x1x3_S2x1048576x1x3_S2x1048576x3x3_d2),
    unary main_v12 main_v97 (broadcastInDim S2x1048576x1x3 ![0, 1, 3] bcast_S2x1048576x3_S2x1048576x1x3_0_1_3 : (⟨S2x1048576x3, .f32⟩ : BufTy).Contents (Elt F) → (⟨S2x1048576x1x3, .f32⟩ : BufTy).Contents (Elt F)),
    unary main_v97 main_v98 (broadcastInDim S2x1048576x3x3 ![0, 1, 2, 3] bcast_S2x1048576x1x3_S2x1048576x3x3_0_1_2_3 : (⟨S2x1048576x1x3, .f32⟩ : BufTy).Contents (Elt F) → (⟨S2x1048576x3x3, .f32⟩ : BufTy).Contents (Elt F)),
    binary main_v96 main_v98 main_v99 (mulf : (⟨S2x1048576x3x3, .f32⟩ : BufTy).Contents (Elt F) → (⟨S2x1048576x3x3, .f32⟩ : BufTy).Contents (Elt F) → (⟨S2x1048576x3x3, .f32⟩ : BufTy).Contents (Elt F)),
    binary main_v99 main_v99 main_v100 ((fun l r => Host.dotGeneral dot_S2x1048576x3x3_S2x1048576x3x3_S2x1048576x3x3_3_3_2_2_01_01 none l r) : (⟨S2x1048576x3x3, .f32⟩ : BufTy).Contents (Elt F) → (⟨S2x1048576x3x3, .f32⟩ : BufTy).Contents (Elt F) → (⟨S2x1048576x3x3, .f32⟩ : BufTy).Contents (Elt F)) ]

set_option maxRecDepth 8192 in
/-- Each operation touches TensorCore buffers only. -/
theorem ops_sub : (ops : List (HloOp τ sig (Elt F))).Forall fun op => op.bufs ⊆ tcRefs τ sig :=
  ⟨nullary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., unary_bufs_sub .., unary_bufs_sub .., nary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., unary_bufs_sub .., unary_bufs_sub .., nary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., unary_bufs_sub .., unary_bufs_sub .., unary_bufs_sub .., nary_bufs_sub .., unary_bufs_sub .., unary_bufs_sub .., unary_bufs_sub .., nary_bufs_sub .., unary_bufs_sub .., unary_bufs_sub .., binary_bufs_sub .., binary_bufs_sub ..⟩

end Cert.ReferenceIdeal.RefOps

end
-- ==== Proof.RefRun.lean ====
/-
  The reference program runs: every weakly fair execution of its @main ends, nothing faulting, with every
  buffer holding what its list of host operations computes from the memory it was started on.
  @main is that list run in order (the two printed halves and the called norm function unfold to it), no buffer
  and no semaphore of the program is scoped, and each operation touches TensorCore buffers only.
-/
import proofs.«138605_j38001870635883_1_alg».proof.Proof.RefOps

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

set_option maxRecDepth 8192 in
set_option maxHeartbeats 4000000 in
/-- @main is its operations run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main ends with each TensorCore buffer at the operations' fold over the
    memory it started on. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's covariance, stage by stage.

  From the normalized-quaternion array U (2 × 1048576 × 4) and the scales array S (2 × 1048576 × 3) the reference
  takes the four components of U as 2 × 1048576 arrays, forms the nine rotation entries from them entrywise,
  stacks three entries into a row and three rows into the 3 × 3 rotation, multiplies column j by scale j, and
  contracts the result with itself over its last axis. Read at (b, n, a, c) that is the sum over j of
  M a j · M c j for the quaternion U (b, n, ·) and the scales S (b, n, ·): entry (a, c) of M Mᵀ.
-/
import proofs.«138605_j38001870635883_1_alg».proof.Proof.RefOps
import proofs.«138605_j38001870635883_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefStage

open Cert.ReferenceIdeal Cert.Gauss Idealize.ShloMosaic Idealize.ShloMosaic.ValueIdx

variable (U : FVec Ideal S2x1048576x4 .f32) (S : FVec Ideal S2x1048576x3 .f32)

/-- A constant over 2 × 1048576. -/
abbrev bc (w : BitVec 32) : FVec Ideal S2x1048576 .f32 :=
  broadcastInDim S2x1048576 ![] Facts₀.bcast_S_S2x1048576 (constant (F := Ideal) S_ .f32 w)

theorem bc_at (w : BitVec 32) (j : S2x1048576.Idx) : bc w j = Ideal.ofBits .f32 w :=
  broadcastInDim_scalar_apply _ _ j

/-- The four components of U, each 2 × 1048576. -/
def comp0 : FVec Ideal S2x1048576 .f32 :=
  shapeCast S2x1048576 (extractStridedSlice S2x1048576x1 ![0, 0, 0] U Facts₀.slices_S2x1048576x4_S2x1048576x1_0_0_0) Facts₀.shapeCasts_S2x1048576x1_S2x1048576
def comp1 : FVec Ideal S2x1048576 .f32 :=
  shapeCast S2x1048576 (extractStridedSlice S2x1048576x1 ![0, 0, 1] U Facts₀.slices_S2x1048576x4_S2x1048576x1_0_0_1) Facts₀.shapeCasts_S2x1048576x1_S2x1048576
def comp2 : FVec Ideal S2x1048576 .f32 :=
  shapeCast S2x1048576 (extractStridedSlice S2x1048576x1 ![0, 0, 2] U Facts₀.slices_S2x1048576x4_S2x1048576x1_0_0_2) Facts₀.shapeCasts_S2x1048576x1_S2x1048576
def comp3 : FVec Ideal S2x1048576 .f32 :=
  shapeCast S2x1048576 (extractStridedSlice S2x1048576x1 ![0, 0, 3] U Facts₀.slices_S2x1048576x4_S2x1048576x1_0_0_3) Facts₀.shapeCasts_S2x1048576x1_S2x1048576

/-- Column o of U as a 2 × 1048576 array, read at (b, n). -/
theorem comp_at (o : Nat) (ho : o < 4) (h : S2x1048576x4.Slices ![0, 0, o] S2x1048576x1) (h' : S2x1048576x1.ShapeCasts S2x1048576)
    (b : Fin 2) (n : Fin 1048576) :
    shapeCast S2x1048576 (extractStridedSlice S2x1048576x1 ![0, 0, o] U h) h' (ix2 b n) = U (ix3 b n (⟨o, ho⟩ : Fin 4)) := by
  refine (shapeCast_apply _ h' (ix2 b n) (ix3 b n (0 : Fin 1)) ?_).trans ?_
  · rw [Shape.rowMajor_val_three, Shape.rowMajor_val_two]
    show (b.val * 1048576 + n.val) * 1 + 0 = b.val * 1048576 + n.val
    omega
  · refine extractStridedSlice_apply _ U h _ _ fun ax => ?_
    match ax with
    | ⟨0, _⟩ => exact (Nat.zero_add _).symm
    | ⟨1, _⟩ => exact (Nat.zero_add _).symm
    | ⟨2, _⟩ => rfl

/-- The quaternion at (b, n). -/
def uAt (b : Fin 2) (n : Fin 1048576) : Fin 4 → EReal := fun k => U (ix3 b n k)
/-- The scales at (b, n). -/
def sAt (b : Fin 2) (n : Fin 1048576) : Fin 3 → EReal := fun a => S (ix3 b n a)

variable (b : Fin 2) (n : Fin 1048576)

theorem c0_at : comp0 U (ix2 b n) = uAt U b n 0 := comp_at U 0 (by omega) _ _ b n
theorem c1_at : comp1 U (ix2 b n) = uAt U b n 1 := comp_at U 1 (by omega) _ _ b n
theorem c2_at : comp2 U (ix2 b n) = uAt U b n 2 := comp_at U 2 (by omega) _ _ b n
theorem c3_at : comp3 U (ix2 b n) = uAt U b n 3 := comp_at U 3 (by omega) _ _ b n

/-- The nine rotation entries, each 2 × 1048576, in the order the reference computes them. -/
def e00 : FVec Ideal S2x1048576 .f32 := subf (bc 0x3F800000#32) (mulf (bc 0x40000000#32) (addf (mulf (comp2 U) (comp2 U)) (mulf (comp3 U) (comp3 U))))
def e01 : FVec Ideal S2x1048576 .f32 := mulf (bc 0x40000000#32) (subf (mulf (comp1 U) (comp2 U)) (mulf (comp3 U) (comp0 U)))
def e02 : FVec Ideal S2x1048576 .f32 := mulf (bc 0x40000000#32) (addf (mulf (comp1 U) (comp3 U)) (mulf (comp2 U) (comp0 U)))
def e10 : FVec Ideal S2x1048576 .f32 := mulf (bc 0x40000000#32) (addf (mulf (comp1 U) (comp2 U)) (mulf (comp3 U) (comp0 U)))
def e11 : FVec Ideal S2x1048576 .f32 := subf (bc 0x3F800000#32) (mulf (bc 0x40000000#32) (addf (mulf (comp1 U) (comp1 U)) (mulf (comp3 U) (comp3 U))))
def e12 : FVec Ideal S2x1048576 .f32 := mulf (bc 0x40000000#32) (subf (mulf (comp2 U) (comp3 U)) (mulf (comp1 U) (comp0 U)))
def e20 : FVec Ideal S2x1048576 .f32 := mulf (bc 0x40000000#32) (subf (mulf (comp1 U) (comp3 U)) (mulf (comp2 U) (comp0 U)))
def e21 : FVec Ideal S2x1048576 .f32 := mulf (bc 0x40000000#32) (addf (mulf (comp2 U) (comp3 U)) (mulf (comp1 U) (comp0 U)))
def e22 : FVec Ideal S2x1048576 .f32 := subf (bc 0x3F800000#32) (mulf (bc 0x40000000#32) (addf (mulf (comp1 U) (comp1 U)) (mulf (comp2 U) (comp2 U))))

theorem e00_at : e00 U (ix2 b n) = rot (uAt U b n) 0 0 := by
  unfold e00; simp only [subf_apply, mulf_apply, addf_apply, bc_at, c0_at, c1_at, c2_at, c3_at]; rfl
theorem e01_at : e01 U (ix2 b n) = rot (uAt U b n) 0 1 := by
  unfold e01; simp only [subf_apply, mulf_apply, addf_apply, bc_at, c0_at, c1_at, c2_at, c3_at]; rfl
theorem e02_at : e02 U (ix2 b n) = rot (uAt U b n) 0 2 := by
  unfold e02; simp only [subf_apply, mulf_apply, addf_apply, bc_at, c0_at, c1_at, c2_at, c3_at]; rfl
theorem e10_at : e10 U (ix2 b n) = rot (uAt U b n) 1 0 := by
  unfold e10; simp only [subf_apply, mulf_apply, addf_apply, bc_at, c0_at, c1_at, c2_at, c3_at]; rfl
theorem e11_at : e11 U (ix2 b n) = rot (uAt U b n) 1 1 := by
  unfold e11; simp only [subf_apply, mulf_apply, addf_apply, bc_at, c0_at, c1_at, c2_at, c3_at]; rfl
theorem e12_at : e12 U (ix2 b n) = rot (uAt U b n) 1 2 := by
  unfold e12; simp only [subf_apply, mulf_apply, addf_apply, bc_at, c0_at, c1_at, c2_at, c3_at]; rfl
theorem e20_at : e20 U (ix2 b n) = rot (uAt U b n) 2 0 := by
  unfold e20; simp only [subf_apply, mulf_apply, addf_apply, bc_at, c0_at, c1_at, c2_at, c3_at]; rfl
theorem e21_at : e21 U (ix2 b n) = rot (uAt U b n) 2 1 := by
  unfold e21; simp only [subf_apply, mulf_apply, addf_apply, bc_at, c0_at, c1_at, c2_at, c3_at]; rfl
theorem e22_at : e22 U (ix2 b n) = rot (uAt U b n) 2 2 := by
  unfold e22; simp only [subf_apply, mulf_apply, addf_apply, bc_at, c0_at, c1_at, c2_at, c3_at]; rfl

/-- A 2 × 1048576 entry as a one-column piece. -/
abbrev col (E : FVec Ideal S2x1048576 .f32) : FVec Ideal S2x1048576x1 .f32 :=
  broadcastInDim S2x1048576x1 ![0, 1] Facts₀.bcast_S2x1048576_S2x1048576x1_0_1 E

theorem col_at (E : FVec Ideal S2x1048576 .f32) (z : Fin 1) : col E (ix3 b n z) = E (ix2 b n) := by
  refine broadcastInDim_apply _ _ E (ix3 b n z) (ix2 b n) fun a => ?_
  match a with
  | ⟨0, _⟩ => show b.val = if (2 : Nat) = 1 then 0 else b.val; rfl
  | ⟨1, _⟩ => show n.val = if (1048576 : Nat) = 1 then 0 else n.val; rfl

/-- Three one-column pieces side by side, read at (b, n, j): piece j at (b, n). -/
theorem cat3_at (v : Fin 3 → FVec Ideal S2x1048576x1 .f32)
    (h : Shape.Concatenates [S2x1048576x1, S2x1048576x1, S2x1048576x1] S2x1048576x3 2) (j : Fin 3) :
    concatenate S2x1048576x3 2 [⟨S2x1048576x1, v 0⟩, ⟨S2x1048576x1, v 1⟩, ⟨S2x1048576x1, v 2⟩] h (ix3 b n j)
      = v j (ix3 b n (0 : Fin 1)) :=
  concatenate_ofFn_unit_apply (t := S2x1048576x3) (s₁ := S2x1048576x1) 2 v h rfl rfl (ix3 b n j) j rfl (ix3 b n (0 : Fin 1))
    (fun x hx => by
      match x with
      | ⟨0, _⟩ => rfl
      | ⟨1, _⟩ => rfl
      | ⟨2, _⟩ => exact absurd rfl hx)

/-- The three rows of the rotation, each 2 × 1048576 × 3. -/
def row0 : FVec Ideal S2x1048576x3 .f32 :=
  concatenate S2x1048576x3 2 [⟨S2x1048576x1, col (e00 U)⟩, ⟨S2x1048576x1, col (e01 U)⟩, ⟨S2x1048576x1, col (e02 U)⟩]
    Facts₀.concatenates_S2x1048576x1_S2x1048576x1_S2x1048576x1_S2x1048576x3_d2
def row1 : FVec Ideal S2x1048576x3 .f32 :=
  concatenate S2x1048576x3 2 [⟨S2x1048576x1, col (e10 U)⟩, ⟨S2x1048576x1, col (e11 U)⟩, ⟨S2x1048576x1, col (e12 U)⟩]
    Facts₀.concatenates_S2x1048576x1_S2x1048576x1_S2x1048576x1_S2x1048576x3_d2
def row2 : FVec Ideal S2x1048576x3 .f32 :=
  concatenate S2x1048576x3 2 [⟨S2x1048576x1, col (e20 U)⟩, ⟨S2x1048576x1, col (e21 U)⟩, ⟨S2x1048576x1, col (e22 U)⟩]
    Facts₀.concatenates_S2x1048576x1_S2x1048576x1_S2x1048576x1_S2x1048576x3_d2

theorem row0_at (j : Fin 3) : row0 U (ix3 b n j) = rot (uAt U b n) 0 j := by
  unfold row0
  refine (cat3_at b n (fun k : Fin 3 => match k with | 0 => _ | 1 => _ | 2 => _) _ j).trans ?_
  fin_cases j
  · exact (col_at b n _ 0).trans (e00_at U b n)
  · exact (col_at b n _ 0).trans (e01_at U b n)
  · exact (col_at b n _ 0).trans (e02_at U b n)
theorem row1_at (j : Fin 3) : row1 U (ix3 b n j) = rot (uAt U b n) 1 j := by
  unfold row1
  refine (cat3_at b n (fun k : Fin 3 => match k with | 0 => _ | 1 => _ | 2 => _) _ j).trans ?_
  fin_cases j
  · exact (col_at b n _ 0).trans (e10_at U b n)
  · exact (col_at b n _ 0).trans (e11_at U b n)
  · exact (col_at b n _ 0).trans (e12_at U b n)
theorem row2_at (j : Fin 3) : row2 U (ix3 b n j) = rot (uAt U b n) 2 j := by
  unfold row2
  refine (cat3_at b n (fun k : Fin 3 => match k with | 0 => _ | 1 => _ | 2 => _) _ j).trans ?_
  fin_cases j
  · exact (col_at b n _ 0).trans (e20_at U b n)
  · exact (col_at b n _ 0).trans (e21_at U b n)
  · exact (col_at b n _ 0).trans (e22_at U b n)

/-- A 2 × 1048576 × 3 array given a unit axis before its last. -/
abbrev lift (R : FVec Ideal S2x1048576x3 .f32) : FVec Ideal S2x1048576x1x3 .f32 :=
  broadcastInDim S2x1048576x1x3 ![0, 1, 3] Facts₀.bcast_S2x1048576x3_S2x1048576x1x3_0_1_3 R

theorem lift_at (R : FVec Ideal S2x1048576x3 .f32) (z : Fin 1) (j : Fin 3) : lift R (ix4 b n z j) = R (ix3 b n j) := by
  refine broadcastInDim_apply _ _ R (ix4 b n z j) (ix3 b n j) fun a => ?_
  match a with
  | ⟨0, _⟩ => show b.val = if (2 : Nat) = 1 then 0 else b.val; rfl
  | ⟨1, _⟩ => show n.val = if (1048576 : Nat) = 1 then 0 else n.val; rfl
  | ⟨2, _⟩ => show j.val = if (3 : Nat) = 1 then 0 else j.val; rfl

/-- Three 2 × 1048576 × 1 × 3 pieces stacked along the unit axis, read at (b, n, a, j): piece a at (b, n, 0, j). -/
theorem cat3m_at (v : Fin 3 → FVec Ideal S2x1048576x1x3 .f32)
    (h : Shape.Concatenates [S2x1048576x1x3, S2x1048576x1x3, S2x1048576x1x3] S2x1048576x3x3 2) (a j : Fin 3) :
    concatenate S2x1048576x3x3 2 [⟨S2x1048576x1x3, v 0⟩, ⟨S2x1048576x1x3, v 1⟩, ⟨S2x1048576x1x3, v 2⟩] h (ix4 b n a j)
      = v a (ix4 b n (0 : Fin 1) j) :=
  concatenate_ofFn_unit_apply (t := S2x1048576x3x3) (s₁ := S2x1048576x1x3) 2 v h rfl rfl (ix4 b n a j) a rfl (ix4 b n (0 : Fin 1) j)
    (fun x hx => by
      match x with
      | ⟨0, _⟩ => rfl
      | ⟨1, _⟩ => rfl
      | ⟨2, _⟩ => exact absurd rfl hx
      | ⟨3, _⟩ => rfl)

/-- The rotation array, 2 × 1048576 × 3 × 3. -/
def Rm : FVec Ideal S2x1048576x3x3 .f32 :=
  concatenate S2x1048576x3x3 2 [⟨S2x1048576x1x3, lift (row0 U)⟩, ⟨S2x1048576x1x3, lift (row1 U)⟩, ⟨S2x1048576x1x3, lift (row2 U)⟩]
    Facts₀.concatenates_S2x1048576x1x3_S2x1048576x1x3_S2x1048576x1x3_S2x1048576x3x3_d2

theorem Rm_at (a j : Fin 3) : Rm U (ix4 b n a j) = rot (uAt U b n) a j := by
  unfold Rm
  refine (cat3m_at b n (fun k : Fin 3 => match k with | 0 => _ | 1 => _ | 2 => _) _ a j).trans ?_
  fin_cases a
  · exact (lift_at b n _ 0 j).trans (row0_at U b n j)
  · exact (lift_at b n _ 0 j).trans (row1_at U b n j)
  · exact (lift_at b n _ 0 j).trans (row2_at U b n j)

/-- The scales repeated over the rotation's rows. -/
def Sm : FVec Ideal S2x1048576x3x3 .f32 :=
  broadcastInDim S2x1048576x3x3 ![0, 1, 2, 3] Facts₀.bcast_S2x1048576x1x3_S2x1048576x3x3_0_1_2_3 (lift S)

theorem Sm_at (a j : Fin 3) : Sm S (ix4 b n a j) = sAt S b n j := by
  unfold Sm
  refine (broadcastInDim_apply _ _ (lift S) (ix4 b n a j) (ix4 b n (0 : Fin 1) j) fun x => ?_).trans (lift_at b n S 0 j)
  match x with
  | ⟨0, _⟩ => show b.val = if (2 : Nat) = 1 then 0 else b.val; rfl
  | ⟨1, _⟩ => show n.val = if (1048576 : Nat) = 1 then 0 else n.val; rfl
  | ⟨2, _⟩ => show 0 = if (1 : Nat) = 1 then 0 else a.val; rfl
  | ⟨3, _⟩ => show j.val = if (3 : Nat) = 1 then 0 else j.val; rfl

/-- The rotation with column j scaled by scale j. -/
def Mm : FVec Ideal S2x1048576x3x3 .f32 := mulf (Rm U) (Sm S)

theorem Mm_at (a j : Fin 3) : Mm U S (ix4 b n a j) = mrot (uAt U b n) (sAt S b n) a j := by
  unfold Mm
  rw [mulf_apply, Rm_at, Sm_at]
  rfl

/-- The reference's covariance array as a function of the quaternion array and the scales array. -/
def covTerm : FVec Ideal S2x1048576x3x3 .f32 :=
  Host.dotGeneral dot_S2x1048576x3x3_S2x1048576x3x3_S2x1048576x3x3_3_3_2_2_01_01 none (Mm U S) (Mm U S)

/-- The contraction at (b, n, a, c): the sum over j of M a j · M c j. -/
theorem cov_at (a c : Fin 3) : covTerm U S (ix4 b n a c) = covOf (uAt U b n) (sAt S b n) a c := by
  unfold covTerm
  refine (Ideal.dotGeneral_apply _ none .single (Mm U S) (Mm U S) (ix4 b n a c)).trans ?_
  rw [← Equiv.sum_comp (contrEquiv1 dot_S2x1048576x3x3_S2x1048576x3x3_S2x1048576x3x3_3_3_2_2_01_01 3 rfl rfl).symm]
  unfold covOf
  refine Finset.sum_congr rfl fun k _ => ?_
  have hk := contrEquiv1_symm_val dot_S2x1048576x3x3_S2x1048576x3x3_S2x1048576x3x3_3_3_2_2_01_01 3 rfl rfl k
  have el : dot_S2x1048576x3x3_S2x1048576x3x3_S2x1048576x3x3_3_3_2_2_01_01.lhsIdx (ix4 b n a c)
      ((contrEquiv1 dot_S2x1048576x3x3_S2x1048576x3x3_S2x1048576x3x3_3_3_2_2_01_01 3 rfl rfl).symm k) = ix4 b n a k :=
    funext fun x => Fin.ext (by
      match x with
      | ⟨0, _⟩ => rfl
      | ⟨1, _⟩ => rfl
      | ⟨2, _⟩ => rfl
      | ⟨3, _⟩ => exact (DotDims.lhsIdx_val_of_single _ rfl _ _).trans hk)
  have er : dot_S2x1048576x3x3_S2x1048576x3x3_S2x1048576x3x3_3_3_2_2_01_01.rhsIdx (ix4 b n a c)
      ((contrEquiv1 dot_S2x1048576x3x3_S2x1048576x3x3_S2x1048576x3x3_3_3_2_2_01_01 3 rfl rfl).symm k) = ix4 b n c k :=
    funext fun x => Fin.ext (by
      match x with
      | ⟨0, _⟩ => rfl
      | ⟨1, _⟩ => rfl
      | ⟨2, _⟩ => rfl
      | ⟨3, _⟩ => exact (DotDims.rhsIdx_val_of_single _ rfl _ _).trans hk)
  rw [el, er, Mm_at, Mm_at]

/-- The reference's covariance array, index by index. -/
theorem covTerm_eq : covTerm U S = fun j => covOf (fun k => U (ix3 (j 0) (j 1) k)) (fun a => S (ix3 (j 0) (j 1) a)) (j 2) (j 3) := by
  funext j
  obtain ⟨b, n, a, c, rfl⟩ : ∃ (b : Fin 2) (n : Fin 1048576) (a : Fin 3) (c : Fin 3), j = ix4 b n a c :=
    ⟨j 0, j 1, j 2, j 3, eq_ix4 j⟩
  exact cov_at U S b n a c

end Cert.ReferenceIdeal.RefStage

end
-- ==== Proof.RefValue.lean ====
/-
  What the reference program's result buffers hold, as whole-array functions of its raw input array.

  The reference's list of operations leaves its three argument buffers as they were: none of its operations
  writes them. Each computed result is read off the list by following, from the result's own operation back to
  the raw array, the operations that feed it; the composed expression is then read index by index:
    * the scales at (b, n, a) are 1/2 + 29/2 · (1 / (1 + e^(-x))) for x entry a of row (b, n);
    * the rotations at (b, n, k) are entry 3 + k of the row divided by the square root of the sum of the
      squares of entries 3 to 6 (the sum starts from the word of zero, which is zero) plus the small constant;
    * the harmonics at (b, n, a, d) are entry 7 + 25 a + d of the row (columns 7 to 81 regrouped as 3 rows of 25,
      row-major) times entry d of the table of 25;
    * the covariances are the covariance stage applied to the rotations and the scales arrays, which at
      (b, n, a, c) is entry (a, c) of M Mᵀ for that row's normalized quaternion and scales.
-/
import proofs.«138605_j38001870635883_1_alg».proof.Proof.RefOps
import proofs.«138605_j38001870635883_1_alg».proof.Proof.RefStages
import proofs.«138605_j38001870635883_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Mathlib.Algebra.BigOperators.Fin

noncomputable section

open scoped BigOperators

namespace Cert.ReferenceIdeal.RefValue

open Cert.ReferenceIdeal Cert.ReferenceIdeal.RefOps Cert.Gauss Idealize.ShloMosaic Idealize.ShloMosaic.StableHlo
  Idealize.ShloMosaic.ValueIdx Idealize.ShloMosaic.TcCoe

/-! ## An operation of three operands: its result over the three operands' contents -/

section Nary3
variable {tp : Topo} {sg : RefSig} {Vl : EltTy → Type} {x a b y : Ref sg .tc}

/-- After an operation of three operands its result buffer holds the function's value at the three operands' contents,
    each read at its own buffer. -/
theorem nary3_result
    (f : ((k : Fin 3) → ((![x, a, b] : Fin 3 → Ref sg .tc) k).ty.Contents Vl) → y.ty.Contents Vl) (hxs hy)
    (G : Valuation tp sg Vl) :
    (nary (τ := tp) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same, with the result buffer matched as it stands. -/
theorem nary3_result'
    (f : ((k : Fin 3) → ((![x, a, b] : Fin 3 → Ref sg .tc) k).ty.Contents Vl) → y.ty.Contents Vl) (hxs hy)
    (G : Valuation tp sg Vl) :
    (nary (τ := tp) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

end Nary3

/-- Follows a result buffer back through the list of operations: each operation's own result is its function of its
    operands' contents, every other buffer is what it was before the operation. -/
macro "ref_results" : tactic =>
  `(tactic| (simp (disch := decide) only [after_cons, after_nil,
      nullary_result', unary_result', binary_result', reshape_result', nary3_result',
      nullary_result_ne', unary_result_ne', binary_result_ne', reshape_result_ne', nary_result_ne', cast_eq]))

/-! ## The three early results as functions of the raw array, mirroring the printed operations -/

section Early
open Cert.ReferenceIdeal.Gen

/-- The table of 25 as extended reals. -/
def mk25 : Fin 25 → EReal := fun d => Ideal.ofBits .f32 (lit0 d)

/-- The scales array: 1/2 + 29/2 · (1 / (1 + e^(-x))) on columns 0 to 2. -/
def tScales (X : FVec Ideal S2x1048576x82 .f32) : FVec Ideal S2x1048576x3 .f32 :=
  addf (F := Ideal) (broadcastInDim S2x1048576x3 ![] bcast_S_S2x1048576x3 (constant (F := Ideal) S_ .f32 0x3F000000#32))
    (mulf (F := Ideal) (broadcastInDim S2x1048576x3 ![] bcast_S_S2x1048576x3 (constant (F := Ideal) S_ .f32 0x41680000#32))
      (Host.divf (F := Ideal) (broadcastInDim S2x1048576x3 ![] bcast_S_S2x1048576x3 (constant (F := Ideal) S_ .f32 0x3F800000#32))
        (addf (F := Ideal) (broadcastInDim S2x1048576x3 ![] bcast_S_S2x1048576x3 (constant (F := Ideal) S_ .f32 0x3F800000#32))
          (Host.exp (F := Ideal) (Host.negf (F := Ideal)
            (extractStridedSlice S2x1048576x3 ![0, 0, 0] X slices_S2x1048576x82_S2x1048576x3_0_0_0))))))

/-- Columns 3 to 6: the raw quaternion. -/
def tQ (X : FVec Ideal S2x1048576x82 .f32) : FVec Ideal S2x1048576x4 .f32 :=
  extractStridedSlice S2x1048576x4 ![0, 0, 3] X slices_S2x1048576x82_S2x1048576x4_0_0_3

/-- The sum of each quaternion's four squares, from the starting zero. -/
def tSumSq (Q : FVec Ideal S2x1048576x4 .f32) : FVec Ideal S2x1048576 .f32 :=
  Host.reduceAdd (F := Ideal) (mulf (F := Ideal) Q Q) (constant (F := Ideal) S_ .f32 0x00000000#32)
    reducesTo_S2x1048576x4_S2x1048576_d2 h_S_

/-- The Euclidean norm of each quaternion, kept as a column. -/
def tNorm (Q : FVec Ideal S2x1048576x4 .f32) : FVec Ideal S2x1048576x1 .f32 :=
  Host.sqrt (F := Ideal) (broadcastInDim S2x1048576x1 ![0, 1] bcast_S2x1048576_S2x1048576x1_0_1 (tSumSq Q))

/-- The norm plus the small constant, as a column. -/
def tDen (Q : FVec Ideal S2x1048576x4 .f32) : FVec Ideal S2x1048576x1 .f32 :=
  addf (F := Ideal) (tNorm Q)
    (broadcastInDim S2x1048576x1 ![] bcast_S_S2x1048576x1 (constant (F := Ideal) S_ .f32 0x322BCC77#32))

/-- The quaternion divided by its norm plus the small constant. -/
def tQuat (X : FVec Ideal S2x1048576x82 .f32) : FVec Ideal S2x1048576x4 .f32 :=
  Host.divf (F := Ideal) (tQ X)
    (broadcastInDim S2x1048576x4 ![0, 1, 2] bcast_S2x1048576x1_S2x1048576x4_0_1_2 (tDen (tQ X)))

/-- Columns 7 to 81. -/
def tH (X : FVec Ideal S2x1048576x82 .f32) : FVec Ideal S2x1048576x75 .f32 :=
  extractStridedSlice S2x1048576x75 ![0, 0, 7] X slices_S2x1048576x82_S2x1048576x75_0_0_7

/-- The table of 25 as an array. -/
def tTab : FVec Ideal S25 .f32 := fun i => FloatOps.ofBits (F := Ideal) .f32 (lit0 (S25.rowMajor i))

/-- Columns 7 to 81 as three rows of 25, each multiplied by the table. -/
def tSh (X : FVec Ideal S2x1048576x82 .f32) : FVec Ideal S2x1048576x3x25 .f32 :=
  mulf (F := Ideal)
    (shapeCast S2x1048576x3x25 (tH X) shapeCasts_S2x1048576x75_S2x1048576x3x25)
    (broadcastInDim S2x1048576x3x25 ![0, 1, 2, 3] bcast_S1x1x1x25_S2x1048576x3x25_0_1_2_3
      (broadcastInDim S1x1x1x25 ![3] bcast_S25_S1x1x1x25_3 tTab))

/-- The host's square root at an index is the extended reals' square root of the element. -/
theorem hostSqrt_apply {s : Shape} {φ : FTy} (x : FVec Ideal s φ) (i : s.Idx) : Host.sqrt x i = Ideal.sqrt (x i) :=
  Ideal.hostUnary_sqrt_def (x i)

/-- The scales at (b, n, a): the scale of entry a of row (b, n). -/
theorem tScales_apply (X : FVec Ideal S2x1048576x82 .f32) (b : Fin 2) (n : Fin 1048576) (a : Fin 3) :
    tScales X (ix3 b n a) = scaleOf (X (ix3 b n ⟨a.val, by omega⟩)) := by
  have hs : extractStridedSlice S2x1048576x3 ![0, 0, 0] X slices_S2x1048576x82_S2x1048576x3_0_0_0 (ix3 b n a)
      = X (ix3 b n ⟨a.val, by omega⟩) :=
    extractStridedSlice_apply _ X _ (ix3 b n a) (ix3 b n ⟨a.val, by omega⟩) fun ax => by
      match ax with
      | ⟨0, _⟩ => exact (Nat.zero_add _).symm
      | ⟨1, _⟩ => exact (Nat.zero_add _).symm
      | ⟨2, _⟩ => exact (Nat.zero_add _).symm
  rw [← scaleOf_expanded, ← hs]
  rfl

theorem tScales_eq (X : FVec Ideal S2x1048576x82 .f32) : tScales X = gScales X :=
  funext fun j => (congrArg (tScales X) (eq_ix3 j)).trans (tScales_apply X (j 0) (j 1) (j 2))

/-- The raw quaternion at (b, n, k): entry 3 + k of row (b, n). -/
theorem tQ_apply (X : FVec Ideal S2x1048576x82 .f32) (b : Fin 2) (n : Fin 1048576) (k : Fin 4) :
    tQ X (ix3 b n k) = rowQ (rawRow X b n) k :=
  extractStridedSlice_apply _ X _ (ix3 b n k) (ix3 b n ⟨3 + k.val, by omega⟩) fun ax => by
    match ax with
    | ⟨0, _⟩ => exact (Nat.zero_add _).symm
    | ⟨1, _⟩ => exact (Nat.zero_add _).symm
    | ⟨2, _⟩ => rfl

/-- The sum of squares at (b, n). -/
theorem tSumSq_apply (Q : FVec Ideal S2x1048576x4 .f32) (b : Fin 2) (n : Fin 1048576) :
    tSumSq Q (ix2 b n) = ∑ k : Fin 4, Q (ix3 b n k) * Q (ix3 b n k) := by
  have hR : S2x1048576x4.Reduces [2] S2x1048576 := by decide
  have e0 : tSumSq Q (ix2 b n)
      = Ideal.hostReduceAdd reducesTo_S2x1048576x4_S2x1048576_d2 (mulf (F := Ideal) Q Q) (Ideal.ofBits .f32 0x00000000#32) (ix2 b n) := rfl
  rw [e0, Ideal.hostReduceAdd_single reducesTo_S2x1048576x4_S2x1048576_d2 hR, Ideal.ofBits_zero_f32, zero_add]
  refine Finset.sum_congr rfl fun k _ => ?_
  have e : hR.lift (ix2 b n) k = ix3 b n k := funext fun ax => Fin.ext (by
    match ax with
    | ⟨0, _⟩ => rfl
    | ⟨1, _⟩ => rfl
    | ⟨2, _⟩ => rfl)
  rw [e]
  rfl

/-- The denominator column at (b, n, 0): the norm plus the small constant. -/
theorem tDen_apply (Q : FVec Ideal S2x1048576x4 .f32) (b : Fin 2) (n : Fin 1048576) (z : Fin 1) :
    tDen Q (ix3 b n z) = Ideal.sqrt (∑ k : Fin 4, Q (ix3 b n k) * Q (ix3 b n k)) + cEps := by
  have hb : broadcastInDim S2x1048576x1 ![0, 1] bcast_S2x1048576_S2x1048576x1_0_1 (tSumSq Q) (ix3 b n z) = tSumSq Q (ix2 b n) :=
    broadcastInDim_apply _ _ _ (ix3 b n z) (ix2 b n) fun ax => by
      match ax with
      | ⟨0, _⟩ => exact show b.val = (if (2 : ℕ) = 1 then 0 else b.val) from (if_neg (by decide)).symm
      | ⟨1, _⟩ => exact show n.val = (if (1048576 : ℕ) = 1 then 0 else n.val) from (if_neg (by decide)).symm
  unfold tDen tNorm
  rw [addf_apply, hostSqrt_apply, hb, tSumSq_apply, broadcastInDim_scalar_apply, constant_apply]

/-- The normalized quaternion at (b, n, k). -/
theorem tQuat_apply (X : FVec Ideal S2x1048576x82 .f32) (b : Fin 2) (n : Fin 1048576) (k : Fin 4) :
    tQuat X (ix3 b n k) = rowU (rawRow X b n) k := by
  have hb : broadcastInDim S2x1048576x4 ![0, 1, 2] bcast_S2x1048576x1_S2x1048576x4_0_1_2 (tDen (tQ X)) (ix3 b n k)
      = tDen (tQ X) (ix3 b n (0 : Fin 1)) :=
    broadcastInDim_apply _ _ _ (ix3 b n k) (ix3 b n (0 : Fin 1)) fun ax => by
      match ax with
      | ⟨0, _⟩ => exact show b.val = (if (2 : ℕ) = 1 then 0 else b.val) from (if_neg (by decide)).symm
      | ⟨1, _⟩ => exact show n.val = (if (1048576 : ℕ) = 1 then 0 else n.val) from (if_neg (by decide)).symm
      | ⟨2, _⟩ => exact show (0 : ℕ) = (if (1 : ℕ) = 1 then 0 else k.val) from (if_pos rfl).symm
  have e1 : rowU (rawRow X b n) k
      = Ideal.div (rowQ (rawRow X b n) k)
          (Ideal.sqrt (∑ k : Fin 4, rowQ (rawRow X b n) k * rowQ (rawRow X b n) k) + cEps) := rfl
  unfold tQuat
  rw [hostDivf_apply, hb, tDen_apply, e1, tQ_apply]
  refine congrArg (fun s => Ideal.div _ (Ideal.sqrt s + cEps)) (Finset.sum_congr rfl fun k _ => ?_)
  rw [tQ_apply]

theorem tQuat_eq (X : FVec Ideal S2x1048576x82 .f32) : tQuat X = gQuat X :=
  funext fun j => (congrArg (tQuat X) (eq_ix3 j)).trans (tQuat_apply X (j 0) (j 1) (j 2))

/-- The harmonics at (b, n, a, d): entry 7 + 25 a + d of row (b, n) times entry d of the table. -/
theorem tSh_apply (X : FVec Ideal S2x1048576x82 .f32) (b : Fin 2) (n : Fin 1048576) (a : Fin 3) (d : Fin 25) :
    tSh X (ix4 b n a d) = rowH mk25 (rawRow X b n) a d := by
  have hlt : 7 + 25 * a.val + d.val < 82 := by omega
  have hlt' : 25 * a.val + d.val < 75 := by omega
  have e0 : tSh X (ix4 b n a d)
      = shapeCast S2x1048576x3x25 (tH X) shapeCasts_S2x1048576x75_S2x1048576x3x25 (ix4 b n a d)
        * broadcastInDim S2x1048576x3x25 ![0, 1, 2, 3] bcast_S1x1x1x25_S2x1048576x3x25_0_1_2_3
            (broadcastInDim S1x1x1x25 ![3] bcast_S25_S1x1x1x25_3 tTab) (ix4 b n a d) := rfl
  have e1 : rowH mk25 (rawRow X b n) a d = X (ix3 b n ⟨7 + 25 * a.val + d.val, hlt⟩) * mk25 d := rfl
  have h1 : shapeCast S2x1048576x3x25 (tH X) shapeCasts_S2x1048576x75_S2x1048576x3x25 (ix4 b n a d)
        = tH X (ix3 b n ⟨25 * a.val + d.val, hlt'⟩) :=
    shapeCast_apply (tH X) _ (ix4 b n a d) (ix3 b n ⟨25 * a.val + d.val, hlt'⟩) (by
      rw [Shape.rowMajor_val_three, Shape.rowMajor_val_four]
      show (b.val * 1048576 + n.val) * 75 + (25 * a.val + d.val) = ((b.val * 1048576 + n.val) * 3 + a.val) * 25 + d.val
      omega)
  have h2 : tH X (ix3 b n ⟨25 * a.val + d.val, hlt'⟩) = X (ix3 b n ⟨7 + 25 * a.val + d.val, hlt⟩) :=
    extractStridedSlice_apply _ X _ _ (ix3 b n ⟨7 + 25 * a.val + d.val, hlt⟩) fun ax => by
      match ax with
      | ⟨0, _⟩ => exact (Nat.zero_add _).symm
      | ⟨1, _⟩ => exact (Nat.zero_add _).symm
      | ⟨2, _⟩ => exact Nat.add_assoc 7 (25 * a.val) d.val
  have h3 : broadcastInDim S2x1048576x3x25 ![0, 1, 2, 3] bcast_S1x1x1x25_S2x1048576x3x25_0_1_2_3
        (broadcastInDim S1x1x1x25 ![3] bcast_S25_S1x1x1x25_3 tTab) (ix4 b n a d)
        = broadcastInDim S1x1x1x25 ![3] bcast_S25_S1x1x1x25_3 tTab (ix4 (0 : Fin 1) (0 : Fin 1) (0 : Fin 1) d) :=
    broadcastInDim_apply _ _ _ (ix4 b n a d) (ix4 (0 : Fin 1) (0 : Fin 1) (0 : Fin 1) d) fun ax => by
      match ax with
      | ⟨0, _⟩ => exact show (0 : ℕ) = (if (1 : ℕ) = 1 then 0 else b.val) from (if_pos rfl).symm
      | ⟨1, _⟩ => exact show (0 : ℕ) = (if (1 : ℕ) = 1 then 0 else n.val) from (if_pos rfl).symm
      | ⟨2, _⟩ => exact show (0 : ℕ) = (if (1 : ℕ) = 1 then 0 else a.val) from (if_pos rfl).symm
      | ⟨3, _⟩ => exact show d.val = (if (25 : ℕ) = 1 then 0 else d.val) from (if_neg (by decide)).symm
  have h4 : broadcastInDim S1x1x1x25 ![3] bcast_S25_S1x1x1x25_3 tTab (ix4 (0 : Fin 1) (0 : Fin 1) (0 : Fin 1) d) = tTab (ix1 d) :=
    broadcastInDim_apply _ _ _ _ (ix1 d) fun ax => by
      match ax with
      | ⟨0, _⟩ => exact show d.val = (if (25 : ℕ) = 1 then 0 else d.val) from (if_neg (by decide)).symm
  have h5 : @Eq (Fin 25) (S25.rowMajor (ix1 d)) d := Fin.ext (Shape.rowMajor_val_one (ix1 d))
  have h6 : tTab (ix1 d) = mk25 d := congrArg (fun w : Fin 25 => Ideal.ofBits .f32 (lit0 w)) h5
  rw [e0, e1, h1, h2, h3, h4, h6]

theorem tSh_eq (X : FVec Ideal S2x1048576x82 .f32) : tSh X = gSh mk25 X :=
  funext fun j => (congrArg (tSh X) (eq_ix4 j)).trans (tSh_apply X (j 0) (j 1) (j 2) (j 3))

end Early

/-! ## The reference's buffers after its operations -/

variable (V : Valuation τ sig (Elt Ideal))

set_option maxRecDepth 16384 in
set_option maxHeartbeats 8000000 in
/-- No operation writes the first argument. -/
theorem ref_arg0 : after (ops (F := Ideal)) V (main_arg0 : DevRef τ sig) = V (main_arg0 : DevRef τ sig) :=
  after_of_forall_not_mem (b := Proc.devRef .tc main_arg0) _ _ (List.forall_iff_forall_mem.mp (by
    simp only [ops, List.Forall, nullary_writes, unary_writes, binary_writes, reshape_writes, nary_writes, Finset.mem_singleton]
    repeat' apply And.intro
    all_goals exact devRef_ne_of_ne (by decide)))

set_option maxRecDepth 16384 in
set_option maxHeartbeats 8000000 in
/-- No operation writes the second argument. -/
theorem ref_arg1 : after (ops (F := Ideal)) V (main_arg1 : DevRef τ sig) = V (main_arg1 : DevRef τ sig) :=
  after_of_forall_not_mem (b := Proc.devRef .tc main_arg1) _ _ (List.forall_iff_forall_mem.mp (by
    simp only [ops, List.Forall, nullary_writes, unary_writes, binary_writes, reshape_writes, nary_writes, Finset.mem_singleton]
    repeat' apply And.intro
    all_goals exact devRef_ne_of_ne (by decide)))

set_option maxRecDepth 16384 in
set_option maxHeartbeats 8000000 in
/-- No operation writes the raw array. -/
theorem ref_arg2 : after (ops (F := Ideal)) V (main_arg2 : DevRef τ sig) = V (main_arg2 : DevRef τ sig) :=
  after_of_forall_not_mem (b := Proc.devRef .tc main_arg2) _ _ (List.forall_iff_forall_mem.mp (by
    simp only [ops, List.Forall, nullary_writes, unary_writes, binary_writes, reshape_writes, nary_writes, Finset.mem_singleton]
    repeat' apply And.intro
    all_goals exact devRef_ne_of_ne (by decide)))

set_option maxRecDepth 16384 in
set_option maxHeartbeats 8000000 in
/-- The scales buffer holds the scales of the raw array. -/
theorem ref_scales : after (ops (F := Ideal)) V (main_v12 : DevRef τ sig) = gScales (V (main_arg2 : DevRef τ sig)) := by
  have h : after (ops (F := Ideal)) V (main_v12 : DevRef τ sig) = tScales (V (main_arg2 : DevRef τ sig)) := by
    ref_results
    rfl
  rw [h, tScales_eq]

set_option maxRecDepth 16384 in
set_option maxHeartbeats 8000000 in
/-- The rotations buffer holds the normalized quaternions of the raw array. -/
theorem ref_quat : after (ops (F := Ideal)) V (main_v17 : DevRef τ sig) = gQuat (V (main_arg2 : DevRef τ sig)) := by
  have h : after (ops (F := Ideal)) V (main_v17 : DevRef τ sig) = tQuat (V (main_arg2 : DevRef τ sig)) := by
    ref_results
    rfl
  rw [h, tQuat_eq]

set_option maxRecDepth 16384 in
set_option maxHeartbeats 8000000 in
/-- The harmonics buffer holds the raw array's harmonics times the table. -/
theorem ref_sh : after (ops (F := Ideal)) V (main_v21 : DevRef τ sig) = gSh mk25 (V (main_arg2 : DevRef τ sig)) := by
  have h : after (ops (F := Ideal)) V (main_v21 : DevRef τ sig) = tSh (V (main_arg2 : DevRef τ sig)) := by
    ref_results
    rfl
  rw [h, tSh_eq]

/-! ## The covariance: the operations after the harmonics, run from any contents

The operations after the one that writes the harmonics read, of what came before them, only the rotations buffer
and the scales buffer, and write neither: run from any contents W they leave in the covariance buffer the
covariance stage of W's rotations and scales. -/

/-- Two lists of operations run one after the other are their concatenation run as one. -/
theorem after_append {tp : Topo} {sg : RefSig} {Vl : EltTy → Type} (l₁ l₂ : List (HloOp tp sg Vl)) :
    ∀ W : Valuation tp sg Vl, after (l₁ ++ l₂) W = after l₂ (after l₁ W) := by
  induction l₁ with
  | nil => intro W; rfl
  | cons op l ih => intro W; exact ih (op.result W)

set_option maxRecDepth 16384 in
set_option maxHeartbeats 16000000 in
/-- The operations after the harmonics, run from any contents. -/
theorem run_cov_tail (W : Valuation τ sig (Elt Ideal)) :
    after (List.drop 32 (ops (F := Ideal))) W (main_v100 : DevRef τ sig)
        = RefStage.covTerm (W (main_v17 : DevRef τ sig)) (W (main_v12 : DevRef τ sig))
      ∧ after (List.drop 32 (ops (F := Ideal))) W (main_v17 : DevRef τ sig) = W (main_v17 : DevRef τ sig)
      ∧ after (List.drop 32 (ops (F := Ideal))) W (main_v12 : DevRef τ sig) = W (main_v12 : DevRef τ sig) := by
  simp only [ops, List.drop_succ_cons, List.drop_zero]
  refine ⟨?_, ?_, ?_⟩
  · ref_results
    rfl
  · ref_results
  · ref_results

/-- The covariance buffer holds the covariance stage of the rotations and scales buffers. -/
theorem run_cov : after (ops (F := Ideal)) V (main_v100 : DevRef τ sig)
    = RefStage.covTerm (after (ops (F := Ideal)) V (main_v17 : DevRef τ sig)) (after (ops (F := Ideal)) V (main_v12 : DevRef τ sig)) := by
  have e : ∀ b : DevRef τ sig, after (ops (F := Ideal)) V b
      = after (List.drop 32 (ops (F := Ideal))) (after (List.take 32 (ops (F := Ideal))) V) b := fun b => by
    rw [← after_append, List.take_append_drop]
  obtain ⟨h1, h2, h3⟩ := run_cov_tail (after (List.take 32 (ops (F := Ideal))) V)
  rw [e (main_v100 : DevRef τ sig), e (main_v17 : DevRef τ sig), e (main_v12 : DevRef τ sig), h1, h2, h3]

/-- The covariance buffer holds the covariances of the raw array. -/
theorem ref_cov : after (ops (F := Ideal)) V (main_v100 : DevRef τ sig) = gCov (V (main_arg2 : DevRef τ sig)) := by
  rw [run_cov, ref_quat, ref_scales, RefStage.covTerm_eq]
  rfl

end Cert.ReferenceIdeal.RefValue

end
-- ==== Proof.lean ====
/-
  A Gaussian adapter: from a raw array of 2 × 1048576 rows of 82 numbers, four arrays — covariances (3 × 3 per
  row), scales (3), rotations (a unit quaternion, 4) and masked harmonics (3 × 25) — and two arrays passed through.

  The kernel program works on blocks of 2048 rows and writes each result block by block; the reference program
  works on whole arrays with host operations. Over the extended reals both compute, for every row, the same
  functions of that row: the scale 1/2 + 29/2 · σ(x) of each of the first three entries (the kernel's logistic is
  the reference's 1 / (1 + e^(-x))); entries 3 to 6 divided by their norm plus a small constant; the rotation R of
  that quaternion, M = R · diag(scales), and M Mᵀ — which the kernel spells as six three-term sums, reusing the
  entries above the diagonal below it, and the reference as one contraction: equal because products of extended
  reals commute —; and entries 7 to 81 times a table of 25 numbers repeated three times (the kernel's table of 75
  is that repetition, word for word). No step uses finiteness of the inputs.

  The kernel programs' frames are the generated ones; the reference's frame is its run with the results dropped.
  Nothing was rewritten when the kernel was idealized, so that claim is trivial.
-/
import proofs.«138605_j38001870635883_1_alg».proof.Defs
import proofs.«138605_j38001870635883_1_alg».proof.Proof.Gen.Kernel
import proofs.«138605_j38001870635883_1_alg».proof.Proof.Gen.Kernel.Frame
import proofs.«138605_j38001870635883_1_alg».proof.Proof.Gen.KernelIdeal
import proofs.«138605_j38001870635883_1_alg».proof.Proof.Gen.KernelIdeal.Frame
import proofs.«138605_j38001870635883_1_alg».proof.Proof.Gen.ReferenceIdeal
import proofs.«138605_j38001870635883_1_alg».proof.Proof.Gen.Pre_finite_inputs
import proofs.«138605_j38001870635883_1_alg».proof.Proof.KernelTail
import proofs.«138605_j38001870635883_1_alg».proof.Proof.RefRun
import proofs.«138605_j38001870635883_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo
open Cert.Gauss

/-- The kernel's table of 75 repeats the reference's table of 25. -/
theorem table_eq : Cert.KernelIdeal.Hand.mk25K = Cert.ReferenceIdeal.RefValue.mk25 := by
  funext d
  unfold Cert.KernelIdeal.Hand.mk25K Cert.ReferenceIdeal.RefValue.mk25
  refine congrArg (Ideal.ofBits .f32) ?_
  revert d
  decide

theorem frame_k : Cert.frame_Kernel := fun m ρ _ => Cert.Kernel.Gen.frame m ρ
theorem frame_ki : Cert.frame_KernelIdeal := fun m ρ _ => Cert.KernelIdeal.Gen.frame m ρ

/-- The reference runs and no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.ref_arg0 _),
     (h c Cert.ReferenceIdeal.main_arg1).trans (Cert.ReferenceIdeal.RefValue.ref_arg1 _),
     (h c Cert.ReferenceIdeal.main_arg2).trans (Cert.ReferenceIdeal.RefValue.ref_arg2 _)⟩)
    (Cert.ReferenceIdeal.RefRun.run_main (F := Ideal) m ρ)

/-- Both programs end with the same six results: the four computed arrays as the same functions of the raw
    argument, the two passed-through arguments as they were. -/
theorem algebraic : Cert.algebraic_KernelIdeal_ReferenceIdeal := by
  intro m ρ m' ρ' _ hagree
  refine ⟨fun c => m ((c.tc : Thread _ _).loc Cert.KernelIdeal.main_arg0),
    fun c => gCov (Cert.KernelIdeal.Hand.X3 m c), fun c => gScales (Cert.KernelIdeal.Hand.X3 m c),
    fun c => gQuat (Cert.KernelIdeal.Hand.X3 m c), fun c => gSh Cert.KernelIdeal.Hand.mk25K (Cert.KernelIdeal.Hand.X3 m c),
    fun c => m ((c.tc : Thread _ _).loc Cert.KernelIdeal.main_arg1), ?_, ?_⟩
  · refine (θ_run Cert.KernelIdeal.defs _ _).mono (fun r h c => ?_) (Cert.KernelIdeal.Hand.run m ρ)
    obtain ⟨h2, h3, h4, h5, a0, a1, a2⟩ := h c
    exact ⟨a0, h2, h3, h4, h5, a1, a0, a1, a2⟩
  · refine (θ_run Cert.ReferenceIdeal.defs _ _).mono (fun r h c => ?_)
      (Cert.ReferenceIdeal.RefRun.run_main (F := Ideal) m' ρ')
    obtain ⟨g0, g1, g2⟩ := hagree c
    have e0 := (h c Cert.ReferenceIdeal.main_arg0).trans (Cert.ReferenceIdeal.RefValue.ref_arg0 _)
    have e1 := (h c Cert.ReferenceIdeal.main_arg1).trans (Cert.ReferenceIdeal.RefValue.ref_arg1 _)
    have e2 := (h c Cert.ReferenceIdeal.main_arg2).trans (Cert.ReferenceIdeal.RefValue.ref_arg2 _)
    have hX : (launchContents m' c (Cert.ReferenceIdeal.main_arg2 : DevRef _ _)) = Cert.KernelIdeal.Hand.X3 m c := g2
    refine ⟨e0.trans g0, ?_, ?_, ?_, ?_, e1.trans g1, e0, e1, e2⟩
    · exact (h c Cert.ReferenceIdeal.main_v100).trans ((Cert.ReferenceIdeal.RefValue.ref_cov _).trans (congrArg gCov hX))
    · exact (h c Cert.ReferenceIdeal.main_v12).trans ((Cert.ReferenceIdeal.RefValue.ref_scales _).trans (congrArg gScales hX))
    · exact (h c Cert.ReferenceIdeal.main_v17).trans ((Cert.ReferenceIdeal.RefValue.ref_quat _).trans (congrArg gQuat hX))
    · exact (h c Cert.ReferenceIdeal.main_v21).trans ((Cert.ReferenceIdeal.RefValue.ref_sh _).trans
        (by rw [hX, table_eq]))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
